-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S128x3x4096 : Shape := ⟨3, ![128, 3, 4096]⟩
abbrev S32x3x4096 : Shape := ⟨3, ![32, 3, 4096]⟩
abbrev S32x4096 : Shape := ⟨2, ![32, 4096]⟩
abbrev S4096 : Shape := ⟨1, ![4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S32x3x4096 : S_.BroadcastsInDim S32x3x4096 (![] : Fin 0 → Fin S32x3x4096.rank)
  reducesTo_S32x3x4096_S_d0_1_2 : S32x3x4096.ReducesTo [0, 1, 2] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S1x4096 .f32) (main_arg1 : IVec S128x3x4096 32) (main_arg2 : FVec F S32x3x4096 .f32) (main_arg3 : FVec F S32x4096 .f32) (main_arg4 : FVec F S4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S32x3x4096 .f32 := Host.absf main_arg2
  let main_cst_0 : FVec F S_ .f32 := constant S_ .f32 0x7F800000#32
  let main_v5 : FVec F S32x3x4096 .f32 := broadcastInDim S32x3x4096 ![] bcast_S_S32x3x4096 main_cst_0
  let main_v6 : IVec S32x3x4096 1 := cmpf .olt main_v4 main_v5
  let main_c_1 : IVec S_ 1 := constantI S_ 1 1#1
  let main_v7 : IVec S_ 1 := (fun x v => Host.reduce IntOp.andi x v reducesTo_S32x3x4096_S_d0_1_2 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S1x4096 : Shape := ⟨2, ![1, 4096]⟩
abbrev S128x3x4096 : Shape := ⟨3, ![128, 3, 4096]⟩
abbrev S32x3x4096 : Shape := ⟨3, ![32, 3, 4096]⟩
abbrev S32x4096 : Shape := ⟨2, ![32, 4096]⟩
abbrev S4096 : Shape := ⟨1, ![4096]⟩
abbrev S32x1x128 : Shape := ⟨3, ![32, 1, 128]⟩
abbrev S32x1x4096 : Shape := ⟨3, ![32, 1, 4096]⟩
abbrev S128x3x1024 : Shape := ⟨3, ![128, 3, 1024]⟩
abbrev S32x3x1024 : Shape := ⟨3, ![32, 3, 1024]⟩
abbrev S32x1x1024 : Shape := ⟨3, ![32, 1, 1024]⟩
abbrev S1x1024 : Shape := ⟨2, ![1, 1024]⟩
abbrev S1x32x1 : Shape := ⟨3, ![1, 32, 1]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S4x3x1024 : Shape := ⟨3, ![4, 3, 1024]⟩
abbrev S1x3x1024 : Shape := ⟨3, ![1, 3, 1024]⟩
abbrev S3x1024 : Shape := ⟨2, ![3, 1024]⟩
abbrev S1x1x1024 : Shape := ⟨3, ![1, 1, 1024]⟩
abbrev S1024 : Shape := ⟨1, ![1024]⟩
abbrev S4x1x1024 : Shape := ⟨3, ![4, 1, 1024]⟩
abbrev S4x1024 : Shape := ⟨2, ![4, 1024]⟩
abbrev S4x32x1024 : Shape := ⟨3, ![4, 32, 1024]⟩
abbrev S128x1024 : Shape := ⟨2, ![128, 1024]⟩

abbrev nBuf : Space → Nat
  | .hbm => 9
  | .vmem => 12
  | .smem => 0
  | _ => 0

abbrev bufTy : (tb : Table) → Fin (tcTables nBuf tb) → BufTy
  | .hbm, ⟨0, _⟩ => ⟨S1x4096, .f32⟩
  | .hbm, ⟨1, _⟩ => ⟨S128x3x4096, .i32⟩
  | .hbm, ⟨2, _⟩ => ⟨S32x3x4096, .f32⟩
  | .hbm, ⟨3, _⟩ => ⟨S32x4096, .f32⟩
  | .hbm, ⟨4, _⟩ => ⟨S4096, .f32⟩
  | .hbm, ⟨5, _⟩ => ⟨S32x1x128, .f32⟩
  | .hbm, ⟨6, _⟩ => ⟨S32x1x4096, .f32⟩
  | .hbm, ⟨7, _⟩ => ⟨S1x4096, .f32⟩
  | .hbm, ⟨8, _⟩ => ⟨S1x4096, .f32⟩
  | .local _ .vmem, ⟨0, _⟩ => ⟨S32x1x128, .f32⟩
  | .local _ .vmem, ⟨1, _⟩ => ⟨S128x3x1024, .i32⟩
  | .local _ .vmem, ⟨2, _⟩ => ⟨S128x3x1024, .i32⟩
  | .local _ .vmem, ⟨3, _⟩ => ⟨S32x3x1024, .f32⟩
  | .local _ .vmem, ⟨4, _⟩ => ⟨S32x3x1024, .f32⟩
  | .local _ .vmem, ⟨5, _⟩ => ⟨S32x1x1024, .f32⟩
  | .local _ .vmem, ⟨6, _⟩ => ⟨S32x1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_off1 (k0_t1 : Fin k0_t1_loop.trips) : Fin 3 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v11 : BitVec 32 := Scalar.muli arg8 c1_i32_8
  let v12 : BitVec 32 := Scalar.addi c0_i32_9 v11
  let v13 : Index := Scalar.indexCast v12
  let c0_10 : Index := 0#32
  let c0_11 : Index := 0#32
  ![v13.toNat, 0, 0]
def k0_mult1 (k0_t1 : Fin k0_t1_loop.trips) : BitVec 32 :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v11 : BitVec 32 := Scalar.muli arg8 c1_i32_8
  let v12 : BitVec 32 := Scalar.addi c0_i32_9 v11
  let c4_i32 : BitVec 32 := 4#32
  let v19 : BitVec 32 := Scalar.muli v12 c4_i32
  v19
def k0_off2 (k0_t1 : Fin k0_t1_loop.trips) : Fin 3 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v11 : BitVec 32 := Scalar.muli arg8 c1_i32_8
  let v12 : BitVec 32 := Scalar.addi c0_i32_9 v11
  let c4_i32 : BitVec 32 := 4#32
  let v19 : BitVec 32 := Scalar.muli v12 c4_i32
  let v20 : BitVec 32 := v19
  let v21 : Index := Scalar.indexCast v20
  let c0_13 : Index := 0#32
  let c0_14 : Index := 0#32
  ![v21.toNat, 0, 0]
def k0_off3 (k0_t1 : Fin k0_t1_loop.trips) : Fin 3 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v11 : BitVec 32 := Scalar.muli arg8 c1_i32_8
  let v12 : BitVec 32 := Scalar.addi c0_i32_9 v11
  let v23 : Index := Scalar.indexCast v12
  let c0_15 : Index := 0#32
  let c0_16 : Index := 0#32
  ![v23.toNat, 0, 0]
def k0_off4 (k0_t1 : Fin k0_t1_loop.trips) : Fin 3 → Nat :=
  let c0_i32_9 : BitVec 32 := 0#32
  let c0_i32 : BitVec 32 := 0#32
  let c1_i32 : BitVec 32 := 1#32
  let arg8 : BitVec 32 := Scf.iv c0_i32 c1_i32 k0_t1
  let c1_i32_8 : BitVec 32 := 1#32
  let v11 : BitVec 32 := Scalar.muli arg8 c1_i32_8
  let v12 : BitVec 32 := Scalar.addi c0_i32_9 v11
  let v26 : Index := Scalar.indexCast v12
  let c0_17 : Index := 0#32
  let c0_18 : Index := 0#32
  ![v26.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x4096_S32x1x128 : S1x4096.ShapeCasts S32x1x128
  shapeCasts_S32x4096_S32x1x4096 : S32x4096.ShapeCasts S32x1x4096
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x32x1_d1_w32 : S1x32x1.Iotas .tc 32 [1]
  h_S1x1x128 : 0 < S1x1x128.numel
  shapeCasts_S1x1x128_S1x128 : S1x1x128.ShapeCasts S1x128
  bitsLt_bf16_f32 : FTy.bits .bf16 < FTy.bits .f32
  reduces_S1x128_S1 : S1x128.Reduces [1] S1
  shapeCasts_S1_S1x1 : S1.ShapeCasts S1x1
  h_S4x3x1024 : 0 < S4x3x1024.numel
  h_S1x3x1024 : 0 < S1x3x1024.numel
  shapeCasts_S1x3x1024_S3x1024 : S1x3x1024.ShapeCasts S3x1024
  h_S1x1x1024 : 0 < S1x1x1024.numel
  shapeCasts_S1x1x1024_S1x1024 : S1x1x1024.ShapeCasts S1x1024
  reduces_S3x1024_S1024 : S3x1024.Reduces [0] S1024
  shapeCasts_S1024_S1x1024 : S1024.ShapeCasts S1x1024
  slices_S4x3x1024_o0_0_0_S4x1x1024 : S4x3x1024.Slices ![0, 0, 0] S4x1x1024
  shapeCasts_S4x1x1024_S4x1024 : S4x1x1024.ShapeCasts S4x1024
  shapeCasts_S4x1024_S4x1x1024 : S4x1024.ShapeCasts S4x1x1024
  broadcasts_S4x1x1024_S4x32x1024 : S4x1x1024.Broadcasts S4x32x1024
  broadcasts_S1x32x1_S4x32x1024 : S1x32x1.Broadcasts S4x32x1024
  shapeCasts_S4x32x1024_S128x1024 : S4x32x1024.ShapeCasts S128x1024
  slices_S3x1024_o0_0_S1x1024 : S3x1024.Slices ![0, 0] S1x1024
  slices_S4x3x1024_o0_1_0_S4x1x1024 : S4x3x1024.Slices ![0, 1, 0] S4x1x1024
  slices_S3x1024_o1_0_S1x1024 : S3x1024.Slices ![1, 0] S1x1024
  slices_S4x3x1024_o0_2_0_S4x1x1024 : S4x3x1024.Slices ![0, 2, 0] S4x1x1024
  slices_S3x1024_o2_0_S1x1024 : S3x1024.Slices ![2, 0] S1x1024
  broadcasts_S1x1_S1x1024 : S1x1.Broadcasts S1x1024
  dot_S1x128_S128x1024_S1x1024_1_0_0_1_n_n_wf : DotDims.WF S1x128 S128x1024 S1x1024 [1] [0] [0] [1] [] []
  hrank0 : 0 < grid0.rank
  k0_t1_ok : k0_t1_loop.OK
  k0_off1_inb : ∀ k0_t1 : Fin k0_t1_loop.trips, ∀ a, (k0_off1 k0_t1) a + S1x1x128.size a ≤ S32x1x128.size a
  k0_mult1_dvd : ∀ k0_t1 : Fin k0_t1_loop.trips, 4 ∣ (k0_mult1 k0_t1).toNat
  k0_off2_inb : ∀ k0_t1 : Fin k0_t1_loop.trips, ∀ a, (k0_off2 k0_t1) a + S4x3x1024.size a ≤ S128x3x1024.size a
  k0_off3_inb : ∀ k0_t1 : Fin k0_t1_loop.trips, ∀ a, (k0_off3 k0_t1) a + S1x3x1024.size a ≤ S32x3x1024.size a
  k0_off4_inb : ∀ k0_t1 : Fin k0_t1_loop.trips, ∀ a, (k0_off4 k0_t1) a + S1x1x1024.size a ≤ S32x1x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1x128.size a ≤ S32x1x128.size a
  hwx0_0 : ∀ i : grid0.Coords, EltTy.bits .f32 = 32 ∨ (Rect.block (s := S32x1x128) S32x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3x1024.size a ≤ S128x3x4096.size a
  hwx0_1 : ∀ i : grid0.Coords, EltTy.bits .i32 = 32 ∨ (Rect.block (s := S128x3x4096) S128x3x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x3x1024.size a ≤ S32x3x4096.size a
  hwx0_2 : ∀ i : grid0.Coords, EltTy.bits .f32 = 32 ∨ (Rect.block (s := S32x3x4096) S32x3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1x1024.size a ≤ S32x1x4096.size a
  hwx0_3 : ∀ i : grid0.Coords, EltTy.bits .f32 = 32 ∨ (Rect.block (s := S32x1x4096) S32x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)

variable [Facts₀]

def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf

abbrev win0_0 : Pipeline.Window sig grid0 :=
  Pipeline.Window.ofSpec (Memref.whole main_v0) S32x1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x3x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x4096 : Shape := ⟨2, ![1, 4096]⟩
abbrev S128x3x4096 : Shape := ⟨3, ![128, 3, 4096]⟩
abbrev S32x3x4096 : Shape := ⟨3, ![32, 3, 4096]⟩
abbrev S32x4096 : Shape := ⟨2, ![32, 4096]⟩
abbrev S4096 : Shape := ⟨1, ![4096]⟩
abbrev S32 : Shape := ⟨1, ![32]⟩
abbrev S128x1x3x4096 : Shape := ⟨4, ![128, 1, 3, 4096]⟩
abbrev S1x32x1x1 : Shape := ⟨4, ![1, 32, 1, 1]⟩
abbrev S128x32x3x4096 : Shape := ⟨4, ![128, 32, 3, 4096]⟩
abbrev S_ : Shape := ⟨0, ![]⟩
abbrev S4096x3x4096 : Shape := ⟨3, ![4096, 3, 4096]⟩
abbrev S32x128x3x4096 : Shape := ⟨4, ![32, 128, 3, 4096]⟩
abbrev S32x128x4096 : Shape := ⟨3, ![32, 128, 4096]⟩
abbrev S4096x4096 : Shape := ⟨2, ![4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S128x3x4096, .i32⟩
  | .hbm, ⟨2, _⟩ => ⟨S32x3x4096, .f32⟩
  | .hbm, ⟨3, _⟩ => ⟨S32x4096, .f32⟩
  | .hbm, ⟨4, _⟩ => ⟨S4096, .f32⟩
  | .hbm, ⟨5, _⟩ => ⟨S32, .i32⟩
  | .hbm, ⟨6, _⟩ => ⟨S128x1x3x4096, .i32⟩
  | .hbm, ⟨7, _⟩ => ⟨S1x32x1x1, .i32⟩
  | .hbm, ⟨8, _⟩ => ⟨S128x32x3x4096, .i32⟩
  | .hbm, ⟨9, _⟩ => ⟨S128x32x3x4096, .i32⟩
  | .hbm, ⟨10, _⟩ => ⟨S128x32x3x4096, .i32⟩
  | .hbm, ⟨11, _⟩ => ⟨S_, .i32⟩
  | .hbm, ⟨12, _⟩ => ⟨S128x32x3x4096, .i32⟩
  | .hbm, ⟨13, _⟩ => ⟨S128x32x3x4096, .i32⟩
  | .hbm, ⟨14, _⟩ => ⟨S_, .i32⟩
  | .hbm, ⟨15, _⟩ => ⟨S128x32x3x4096, .i32⟩
  | .hbm, ⟨16, _⟩ => ⟨S128x32x3x4096, .i32⟩
  | .hbm, ⟨17, _⟩ => ⟨S_, .i32⟩
  | .hbm, ⟨18, _⟩ => ⟨S128x32x3x4096, .i32⟩
  | .hbm, ⟨19, _⟩ => ⟨S128x32x3x4096, .i32⟩
  | .hbm, ⟨20, _⟩ => ⟨S4096x3x4096, .i32⟩
  | .hbm, ⟨21, _⟩ => ⟨S4096x3x4096, .f32⟩
  | .hbm, ⟨22, _⟩ => ⟨S32x128x3x4096, .f32⟩
  | .hbm, ⟨23, _⟩ => ⟨S4096x3x4096, .f32⟩
  | .hbm, ⟨24, _⟩ => ⟨S32x128x4096, .f32⟩
  | .hbm, ⟨25, _⟩ => ⟨S4096x4096, .f32⟩
  | .hbm, ⟨26, _⟩ => ⟨S4096x3x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S1x4096, .f32⟩
  | .hbm, ⟨32, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S128x3x4096_S128x1x3x4096_0_2_3 : S128x3x4096.BroadcastsInDim S128x1x3x4096 (![0, 2, 3] : Fin 3 → Fin S128x1x3x4096.rank)
  bcast_S32_S1x32x1x1_1 : S32.BroadcastsInDim S1x32x1x1 (![1] : Fin 1 → Fin S1x32x1x1.rank)
  bcast_S128x1x3x4096_S128x32x3x4096_0_1_2_3 : S128x1x3x4096.BroadcastsInDim S128x32x3x4096 (![0, 1, 2, 3] : Fin 4 → Fin S128x32x3x4096.rank)
  bcast_S1x32x1x1_S128x32x3x4096_0_1_2_3 : S1x32x1x1.BroadcastsInDim S128x32x3x4096 (![0, 1, 2, 3] : Fin 4 → Fin S128x32x3x4096.rank)
  bcast_S_S128x32x3x4096 : S_.BroadcastsInDim S128x32x3x4096 (![] : Fin 0 → Fin S128x32x3x4096.rank)
  shapeCasts_S128x32x3x4096_S4096x3x4096 : S128x32x3x4096.ShapeCasts S4096x3x4096
  bcast_S32x3x4096_S32x128x3x4096_0_2_3 : S32x3x4096.BroadcastsInDim S32x128x3x4096 (![0, 2, 3] : Fin 3 → Fin S32x128x3x4096.rank)
  shapeCasts_S32x128x3x4096_S4096x3x4096 : S32x128x3x4096.ShapeCasts S4096x3x4096
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  reducesTo_S4096x3x4096_S4096x4096_d1 : S4096x3x4096.ReducesTo [1] S4096x4096
  h_S_ : 0 < S_.numel
  bcast_S4096_S1x4096_1 : S4096.BroadcastsInDim S1x4096 (![1] : Fin 1 → Fin S1x4096.rank)
  dot_S1x4096_S4096x4096_S1x4096_1_0_0_1_n_n_wf : DotDims.WF S1x4096 S4096x4096 S1x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.LutTrip.lean ====
/-
  One pass of the kernel's loop over the 32 groups, as ONE function of the accumulator it finds.

  A pass loads the group's 128 inputs `v14`, its four packed words per plane and column `v22`, its three scales per
  column `v24` and its offsets `v27`, and updates the accumulator row four times: once per bit plane, adding
  (2·α_b)·(x · bits_b), and once more adding (Σ x)·(q − Σ_b α_b).  Each update reads the row the previous one wrote, so the
  pass is the composition below of the four stored values, each a function of the row before it.
-/
import proofs.«419244_j24369644437526_3_alg».proof.Proof.Gen.KernelIdeal.Skeleton

noncomputable section

namespace Cert.KernelIdeal.LutTrip

open Cert.KernelIdeal Cert.KernelIdeal.Gen Idealize.ShloMosaic

variable {F : FTy → Type} [FloatOps F]

/-- The accumulator row after one pass, from the row `a` before it and the pass's four loads. -/
def tripVal (v4 : IVec S1x32x1 32) (v14 : Vec F S1x1x128 .f32) (v22 : Vec F S4x3x1024 .i32) (v24 : Vec F S1x3x1024 .f32)
    (v27 : Vec F S1x1x1024 .f32) (a : Vec F S1x1024 .f32) : Vec F S1x1024 .f32 :=
  k0_pay2 (k0_pay6 v14) (k0_pay8 v27) (k0_pay9 v24)
    (k0_pay13 v4 (k0_pay5 v14) v22 (k0_pay7 v24)
      (k0_pay12 v4 (k0_pay5 v14) v22 (k0_pay7 v24)
        (k0_pay11 (k0_pay10 v4 v14 v22 v24 a))))

end Cert.KernelIdeal.LutTrip

end
-- ==== Proof.LutRun.lean ====
/-
  What the kernel's body leaves in its output row, as a closed recursion over the 32 groups.

  The body zeroes an accumulator row, makes 32 passes over it (one per group: LutTrip's `tripVal`), and stores the
  accumulator plus the bias row.  Every store of the accumulator covers the whole row, so what a later load reads is
  exactly the value last stored: the row after `k` passes is `accRow k`, with `accRow 0` the zero row and
  `accRow (k+1)` one pass applied to `accRow k` and the group's loads (row `k` of the inputs, words `4k … 4k+3`,
  row `k` of the scales and of the offsets).  The output row is `accRow 32` plus the bias row.
-/
import proofs.«419244_j24369644437526_3_alg».proof.Proof.Gen.KernelIdeal.Frame
import proofs.«419244_j24369644437526_3_alg».proof.Proof.LutTrip
import Idealize.ShloMosaic.Lib.Pipeline.Value
import Idealize.ShloMosaic.Lib.Tactic

set_option maxRecDepth 16384

noncomputable section

namespace Cert.KernelIdeal.LutRun

open Cert.KernelIdeal Cert.KernelIdeal.Gen Cert.KernelIdeal.LutTrip
open Idealize.ShloMosaic Idealize.ShloMosaic.TcCoe Idealize.ShloMosaic.Tactic Idealize.SL.Sem

variable {F : FTy → Type} [FloatOps F]

/-- The loop makes 32 passes. -/
theorem trips_eq : k0_t1_loop.trips = 32 := by decide +kernel

/-- The offsets of a whole-row access are zero. -/
theorem hz2 : (![0, 0] : Fin S1x1024.rank → Nat) = fun _ => 0 := by
  funext a; match a with | ⟨0, _⟩ => rfl | ⟨1, _⟩ => rfl

/-- The shift amounts 0 … 31 along the middle axis. -/
abbrev shifts : IVec S1x32x1 32 := iota .tc S1x32x1 32 [1] iota_S1x32x1_d1_w32

/-- Pass `k`'s loads from the four input blocks. -/
abbrev ldX (x0 : Vec F S32x1x128 .f32) (k : Fin k0_t1_loop.trips) : Vec F S1x1x128 .f32 :=
  View.ld x0 (Rect.unit (s := S32x1x128) (k0_off1 k) S1x1x128.size (k0_off1_inb k))
abbrev ldW (x1 : Vec F S128x3x1024 .i32) (k : Fin k0_t1_loop.trips) : Vec F S4x3x1024 .i32 :=
  View.ld x1 (Rect.unit (s := S128x3x1024) (k0_off2 k) S4x3x1024.size (k0_off2_inb k))
abbrev ldA (x2 : Vec F S32x3x1024 .f32) (k : Fin k0_t1_loop.trips) : Vec F S1x3x1024 .f32 :=
  View.ld x2 (Rect.unit (s := S32x3x1024) (k0_off3 k) S1x3x1024.size (k0_off3_inb k))
abbrev ldQ (x3 : Vec F S32x1x1024 .f32) (k : Fin k0_t1_loop.trips) : Vec F S1x1x1024 .f32 :=
  View.ld x3 (Rect.unit (s := S32x1x1024) (k0_off4 k) S1x1x1024.size (k0_off4_inb k))

/-- The accumulator row after the first `k` passes. -/
def accRow (x0 : Vec F S32x1x128 .f32) (x1 : Vec F S128x3x1024 .i32) (x2 : Vec F S32x3x1024 .f32) (x3 : Vec F S32x1x1024 .f32) :
    Nat → Vec F S1x1024 .f32
  | 0 => k0_pay1
  | k + 1 => if h : k < k0_t1_loop.trips then
      tripVal shifts (ldX x0 ⟨k, h⟩) (ldW x1 ⟨k, h⟩) (ldA x2 ⟨k, h⟩) (ldQ x3 ⟨k, h⟩) (accRow x0 x1 x2 x3 k)
    else accRow x0 x1 x2 x3 k

theorem accRow_succ (x0 : Vec F S32x1x128 .f32) (x1 : Vec F S128x3x1024 .i32) (x2 : Vec F S32x3x1024 .f32) (x3 : Vec F S32x1x1024 .f32)
    (k : Fin k0_t1_loop.trips) :
    accRow x0 x1 x2 x3 (k.val + 1)
      = tripVal shifts (ldX x0 k) (ldW x1 k) (ldA x2 k) (ldQ x3 k) (accRow x0 x1 x2 x3 k.val) := by
  rw [accRow]; exact dif_pos k.isLt

/-- A whole-row store, made last, is what the row then reads. -/
theorem read_writes_whole {sig' : RefSig} {κ : Kind} {sp : Space} (v : View sig' κ sp S1x1024 .f32) (f : v.ty.Contents (Elt F))
    (w : S1x1024.Idx → Elt F .f32) (Ls : List (View.Piece (Elt F) S1x1024 .f32)) :
    v.read (Elt F) (v.writes (Elt F) f (⟨Rect.unit (s := S1x1024) ![0, 0] S1x1024.size inb_S1x1024_S1x1024_0_0, w⟩ :: Ls)) = w := by
  rw [View.read_writes_eq_canon _ _ _ (fun y => ⟨_, List.mem_cons_self, View.mem_set_unit_zero hz2 inb_S1x1024_S1x1024_0_0 y⟩),
    View.canon_cons_unit_zero hz2]

/-- ONE PASS: whatever the accumulator row holds, after pass `k`'s four stores it holds `tripVal` of what it held
    and of the pass's loads. -/
theorem read_trip (𝒱 : Variants) (c : Dev nD) (bd : Option 𝒱.V) (i : grid0.Coords) (arg1 : Memref sig .tc .vmem S32x1x128 .f32) (harg1 : arg1.IsWhole) (arg2 : Memref sig .tc .vmem S128x3x1024 .i32) (harg2 : arg2.IsWhole) (arg3 : Memref sig .tc .vmem S32x3x1024 .f32) (harg3 : arg3.IsWhole) (arg4 : Memref sig .tc .vmem S32x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (v4 : IVec S1x32x1 32)
    (x0 : Vec F S32x1x128 .f32) (x1 : Vec F S128x3x1024 .i32) (x2 : Vec F S32x3x1024 .f32) (x3 : Vec F S32x1x1024 .f32)
    (k : Fin k0_t1_loop.trips) (f : BufTy.Contents (Elt F) arg7.view.ty) :
    arg7.view.read (Elt F) (arg7.view.writes (Elt F) f
        (tripL_k0_t1 (F := F) 𝒱 c bd i arg1 harg1 arg2 harg2 arg3 harg3 arg4 harg4 arg5 harg5 arg6 harg6 arg7 harg7 v4 (harg1.unread x0) (harg2.unread x1) (harg3.unread x2) (harg4.unread x3) k f))
      = tripVal v4 (ldX x0 k) (ldW x1 k) (ldA x2 k) (ldQ x3 k) (arg7.view.read (Elt F) f) := by
  unfold tripL_k0_t1 trip_k0_t1
  dsimp only
  sl_unfold_run_names
  simp only [View.readCov_cons_toLoadRect]
  rw [read_writes_whole]
  simp only [View.readAt_eq_ld, harg1.read_unread, harg2.read_unread, harg3.read_unread, harg4.read_unread,
    View.ld_unit_zero (S := S1x1024) hz2]
  rfl

/-- THE LOOP: started on a zero row, after `k` passes the accumulator row reads `accRow k`. -/
theorem read_pb (𝒱 : Variants) (c : Dev nD) (bd : Option 𝒱.V) (i : grid0.Coords) (arg1 : Memref sig .tc .vmem S32x1x128 .f32) (harg1 : arg1.IsWhole) (arg2 : Memref sig .tc .vmem S128x3x1024 .i32) (harg2 : arg2.IsWhole) (arg3 : Memref sig .tc .vmem S32x3x1024 .f32) (harg3 : arg3.IsWhole) (arg4 : Memref sig .tc .vmem S32x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (v4 : IVec S1x32x1 32) (hv4 : v4 = shifts)
    (x0 : Vec F S32x1x128 .f32) (x1 : Vec F S128x3x1024 .i32) (x2 : Vec F S32x3x1024 .f32) (x3 : Vec F S32x1x1024 .f32)
    (G : BufTy.Contents (Elt F) arg7.view.ty) (hG : arg7.view.read (Elt F) G = k0_pay1) :
    ∀ k : Nat, k ≤ k0_t1_loop.trips →
      arg7.view.read (Elt F) (arg7.view.writes (Elt F) G
          (pb_k0_t1 (F := F) 𝒱 c bd i arg1 harg1 arg2 harg2 arg3 harg3 arg4 harg4 arg5 harg5 arg6 harg6 arg7 harg7 v4 (harg1.unread x0) (harg2.unread x1) (harg3.unread x2) (harg4.unread x3) G k))
        = accRow x0 x1 x2 x3 k
  | 0, _ => by
    rw [pb_k0_t1, View.writes_nil, hG]; rfl
  | k + 1, h => by
    have ih := read_pb 𝒱 c bd i arg1 harg1 arg2 harg2 arg3 harg3 arg4 harg4 arg5 harg5 arg6 harg6 arg7 harg7 v4 hv4 x0 x1 x2 x3 G hG k (Nat.le_of_succ_le h)
    have e := pb_k0_t1_succ (F := F) 𝒱 c bd i arg1 harg1 arg2 harg2 arg3 harg3 arg4 harg4 arg5 harg5 arg6 harg6 arg7 harg7 v4 (harg1.unread x0) (harg2.unread x1) (harg3.unread x2) (harg4.unread x3) G ⟨k, h⟩
    have e' := accRow_succ x0 x1 x2 x3 ⟨k, h⟩
    dsimp only at e e'
    rw [e, View.writes_append, read_trip, ih, e', hv4]

/-- THE BODY: the output row it leaves is the accumulator after all 32 passes plus the bias row. -/
theorem out_eq (c : Dev nD) (i : grid0.Coords) (arg1 : Memref sig .tc .vmem S32x1x128 .f32) (harg1 : arg1.IsWhole) (arg2 : Memref sig .tc .vmem S128x3x1024 .i32) (harg2 : arg2.IsWhole) (arg3 : Memref sig .tc .vmem S32x3x1024 .f32) (harg3 : arg3.IsWhole) (arg4 : Memref sig .tc .vmem S32x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole)
    (x0 : Vec F S32x1x128 .f32) (x1 : Vec F S128x3x1024 .i32) (x2 : Vec F S32x3x1024 .f32) (x3 : Vec F S32x1x1024 .f32) (x4 : Vec F S1x1024 .f32) :
    out0_A_5 c i arg1 harg1 arg2 harg2 arg3 harg3 arg4 harg4 arg5 harg5 arg6 harg6 arg7 harg7 x0 x1 x2 x3 x4 = k0_pay3 (accRow x0 x1 x2 x3 32) x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_run_names
  rw [View.canon_unit_zero hz2, View.writes_append]
  simp only [View.readAt_eq_ld, View.ld_unit_zero (S := S1x1024) hz2, harg5.read_unread]
  rw [read_pb Variants.none c none i arg1 harg1 arg2 harg2 arg3 harg3 arg4 harg4 arg5 harg5 arg6 harg6 arg7 harg7 shifts rfl x0 x1 x2 x3 _ (read_writes_whole _ _ _ _) _ (le_refl _)]
  rw [trips_eq]

end Cert.KernelIdeal.LutRun

end
-- ==== Proof.LutSpec.lean ====
/-
  The two closed forms of the binary-coded quantised matrix–vector product, index by index over the extended reals.

  Inputs: a row vector `x` of 4096 entries; bit planes `bw` (128 words × 3 planes × 4096 columns, each 32-bit word
  packing 32 consecutive input positions: bit `j` of word `i` belongs to input position `32·i + j`); scales `al`
  (32 groups × 3 planes × 4096 columns), offsets `qb` (32 groups × 4096 columns), and a bias `bi` (4096 columns).
  Input position `k` lies in group `k / 128`.

  REFERENCE FORM.  Column `n` of the result is  Σ_k x_k · W(k, n) + bias_n  with the dequantised weight
  W(k, n) = (0 + Σ_b α(g(k), b, n) · (2·bit(k, b, n) − 1)) + q(g(k), n), the code 2·bit − 1 formed on integers.

  ACCUMULATED FORM.  Group by group, starting from 0, the accumulator takes
  acc ← (((acc + (2·α_0)·S_0) + (2·α_1)·S_1) + (2·α_2)·S_2) + X · (q − A),
  where S_b = Σ_{k in the group} x_k · bit(k, b, n), X = Σ_{k in the group} x_k and A = Σ_b α_b; the result is acc + bias_n.
  The two agree because Σ_k x_k·(2·bit − 1) = 2·S − X inside each group; that identity distributes a product over a
  sum, so it is used where every entry is a real number.
-/
import Idealize.ShloMosaic.PureOps.Ideal
import Idealize.ShloMosaic.Lib.ValueIdx

noncomputable section

namespace Cert.LutSpec

open Idealize.ShloMosaic Idealize.ShloMosaic.ValueIdx

/-- The word that holds input position `k`. -/
def wordOf (k : Fin 4096) : Fin 128 := ⟨k.val / 32, by have := k.isLt; omega⟩
/-- The group of input position `k`. -/
def groupOf (k : Fin 4096) : Fin 32 := ⟨k.val / 128, by have := k.isLt; omega⟩
/-- Position `kl` of group `g` as an input position: `128·g + kl`. -/
def posOf (g : Fin 32) (kl : Fin 128) : Fin 4096 := ⟨g.val * 128 + kl.val, by have := g.isLt; have := kl.isLt; omega⟩

theorem wordOf_val (k : Fin 4096) : (wordOf k).val = k.val / 32 := rfl
theorem groupOf_val (k : Fin 4096) : (groupOf k).val = k.val / 128 := rfl
theorem posOf_val (g : Fin 32) (kl : Fin 128) : (posOf g kl).val = g.val * 128 + kl.val := rfl

/-- An arithmetic right shift by an amount below the width is the plain shift, on every unit. -/
theorem shrsi_ofNat_lt (u : ArithUnit) (x : BitVec 32) (s : Nat) (hs : s < 32) :
    IntOp.shrsi u x (BitVec.ofNat 32 s) = x.sshiftRight' (BitVec.ofNat 32 s) := by
  unfold IntOp.shrsi
  rw [if_pos]
  rw [BitVec.toNat_ofNat]
  exact lt_of_le_of_lt (Nat.mod_le _ _) hs

variable (x : (⟨2, ![1, 4096]⟩ : Shape).Idx → EReal) (bw : (⟨3, ![128, 3, 4096]⟩ : Shape).Idx → BitVec 32)
  (al : (⟨3, ![32, 3, 4096]⟩ : Shape).Idx → EReal) (qb : (⟨2, ![32, 4096]⟩ : Shape).Idx → EReal)
  (bi : (⟨1, ![4096]⟩ : Shape).Idx → EReal)

/-- Bit `k mod 32` of the word of position `k`, plane `b`, column `n`, as a word: 0 or 1. -/
def bitw (k : Fin 4096) (b : Fin 3) (n : Fin 4096) : BitVec 32 :=
  ((bw (ix3 (wordOf k) b n)).sshiftRight' (BitVec.ofNat 32 (k.val % 32))) &&& 1#32

/-- The zero and the two of the programs, as they print them. -/
abbrev zeroE : EReal := Ideal.ofBits .f32 0x00000000#32
abbrev twoE : EReal := Ideal.ofBits .f32 0x40000000#32

/-- The dequantised weight of position `k`, column `n`, in the reference's form. -/
def weight (k : Fin 4096) (n : Fin 4096) : EReal :=
  (zeroE + ∑ b : Fin 3, al (ix3 (groupOf k) b n) * (((2#32 * bitw bw k b n - 1#32).toInt : ℝ) : EReal)) + qb (ix2 (groupOf k) n)

/-- THE REFERENCE FORM of column `n`. -/
def RE (n : Fin 4096) : EReal :=
  (∑ k : Fin 4096, x (ix2 0 k) * weight bw al qb k n) + bi (ix1 n)

/-- Σ over a group of x · bit, for plane `b`. -/
def planeSum (g : Fin 32) (b : Fin 3) (n : Fin 4096) : EReal :=
  ∑ kl : Fin 128, x (ix2 0 (posOf g kl)) * (((bitw bw (posOf g kl) b n).toInt : ℝ) : EReal)
/-- Σ over a group of x. -/
def groupSum (g : Fin 32) : EReal := ∑ kl : Fin 128, x (ix2 0 (posOf g kl))
/-- Σ over the planes of α. -/
def alphaSum (g : Fin 32) (n : Fin 4096) : EReal := ∑ b : Fin 3, al (ix3 g b n)

/-- One group's update of the accumulator. -/
def step (g : Fin 32) (n : Fin 4096) (a : EReal) : EReal :=
  (((a + (twoE * al (ix3 g 0 n)) * planeSum x bw g 0 n) + (twoE * al (ix3 g 1 n)) * planeSum x bw g 1 n)
      + (twoE * al (ix3 g 2 n)) * planeSum x bw g 2 n)
    + groupSum x g * (qb (ix2 g n) - alphaSum al g n)

/-- The accumulator after the first `k` groups. -/
def accE (n : Fin 4096) : Nat → EReal
  | 0 => zeroE
  | k + 1 => if h : k < 32 then step x bw al qb ⟨k, h⟩ n (accE n k) else accE n k

theorem accE_zero (n : Fin 4096) : accE x bw al qb n 0 = zeroE := rfl
theorem accE_succ (n : Fin 4096) (k : Fin 32) :
    accE x bw al qb n (k.val + 1) = step x bw al qb k n (accE x bw al qb n k.val) := by
  rw [accE]; exact dif_pos k.isLt

/-- THE ACCUMULATED FORM of column `n`. -/
def KE (n : Fin 4096) : EReal := accE x bw al qb n 32 + bi (ix1 n)

end Cert.LutSpec

end
-- ==== Proof.LutBlocks.lean ====
/-
  What the kernel's loads read, in terms of the argument arrays.

  Grid point `t` (of 4) works on columns `1024·t … 1024·t + 1023`.  Its blocks: the whole input vector regrouped as
  32 rows of 128 (row `g`, position `kl` is input position `128·g + kl`); columns `1024·t + j` of the packed words, of the
  scales, of the offsets (regrouped 32 × 1 × 4096) and of the bias (regrouped 1 × 4096).  Pass `k` of the loop loads row
  `k` of the inputs, words `4k … 4k+3`, row `k` of the scales and of the offsets.
-/
import proofs.«419244_j24369644437526_3_alg».proof.Proof.Gen.KernelIdeal.Value
import proofs.«419244_j24369644437526_3_alg».proof.Proof.LutRun
import proofs.«419244_j24369644437526_3_alg».proof.Proof.LutSpec
import Idealize.ShloMosaic.Lib.Pipeline.Value
import Idealize.ShloMosaic.Lib.ValueIdx
import Idealize.ShloMosaic.Lib.StableHlo.Run

set_option maxRecDepth 16384

noncomputable section

namespace Cert.KernelIdeal.LutBlocks

open Cert.KernelIdeal Cert.KernelIdeal.Gen Cert.KernelIdeal.LutRun Cert.LutSpec
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The argument arrays and the blocks, at their literal types -/

abbrev aX (c : Dev nD) : S1x4096.Idx → EReal := m ((c : Thread nD τ).loc main_arg0)
abbrev aW (c : Dev nD) : S128x3x4096.Idx → BitVec 32 := m ((c : Thread nD τ).loc main_arg1)
abbrev aA (c : Dev nD) : S32x3x4096.Idx → EReal := m ((c : Thread nD τ).loc main_arg2)
abbrev aQ (c : Dev nD) : S32x4096.Idx → EReal := m ((c : Thread nD τ).loc main_arg3)
abbrev aB (c : Dev nD) : S4096.Idx → EReal := m ((c : Thread nD τ).loc main_arg4)

abbrev bX (c : Dev nD) (t : Fin cfg0.N) : Vec Ideal S32x1x128 .f32 := iblk m c 0 t
abbrev bW (c : Dev nD) (t : Fin cfg0.N) : Vec Ideal S128x3x1024 .i32 := iblk m c 1 t
abbrev bA (c : Dev nD) (t : Fin cfg0.N) : Vec Ideal S32x3x1024 .f32 := iblk m c 2 t
abbrev bQ (c : Dev nD) (t : Fin cfg0.N) : Vec Ideal S32x1x1024 .f32 := iblk m c 3 t
abbrev bB (c : Dev nD) (t : Fin cfg0.N) : Vec Ideal S1x1024 .f32 := iblk m c 4 t

/-- Column `1024·t + j`. -/
def colOf (t : Fin cfg0.N) (j : Fin 1024) : Fin 4096 :=
  ⟨t.val * 1024 + j.val, by have h : t.val < 4 := Nat.lt_of_lt_of_le t.isLt (Nat.le_of_eq Gen.N_0); have := j.isLt; omega⟩

theorem colOf_val (t : Fin cfg0.N) (j : Fin 1024) : (colOf t j).val = t.val * 1024 + j.val := rfl

/-! ## The three regrouped arrays the region finds -/

theorem V_v0 (c : Dev nD) :
    (V m c main_v0 : S32x1x128.Idx → EReal) = shapeCast S32x1x128 (aX m c) shapeCasts_S1x4096_S32x1x128 := by
  dsimp only [Gen.V, Gen.hostOps0]; after_results; rfl
theorem V_v1 (c : Dev nD) :
    (V m c main_v1 : S32x1x4096.Idx → EReal) = shapeCast S32x1x4096 (aQ m c) shapeCasts_S32x4096_S32x1x4096 := by
  dsimp only [Gen.V, Gen.hostOps0]; after_results; rfl
theorem V_v2 (c : Dev nD) :
    (V m c main_v2 : S1x4096.Idx → EReal) = shapeCast S1x4096 (aB m c) shapeCasts_S4096_S1x4096 := by
  dsimp only [Gen.V, Gen.hostOps0]; after_results; rfl

/-! ## The windows' block indices, decided over the four grid points -/

theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## The blocks read at an index -/

/-- The input block: row `g`, position `kl` is input position `128·g + kl`. -/
theorem bX_apply (c : Dev nD) (t : Fin cfg0.N) (g : Fin 32) (kl : Fin 128) :
    bX m c t (ix3 g 0 kl) = aX m c (ix2 0 (posOf g kl)) := by
  obtain ⟨e0, e1, e2, -⟩ := idx_facts t
  show V m c main_v0 (((cfg0.win 0).blk t).view.emb (ix3 g 0 kl)) = _
  rw [V_v0]
  refine shapeCast_apply _ _ _ (ix2 0 (posOf g kl)) ?_
  rewrite [Shape.rowMajor_val_two, Shape.rowMajor_val_three]
  show 0 * 4096 + (g.val * 128 + kl.val)
    = ((win0_0.index t (0 : Fin 3) * 32 + 1 * g.val) * 1 + (win0_0.index t (1 : Fin 3) * 1 + 1 * 0)) * 128 + (win0_0.index t (2 : Fin 3) * 128 + 1 * kl.val)
  omega

/-- The words' block: column `j` of the block is column `1024·t + j` of the array. -/
theorem bW_apply (c : Dev nD) (t : Fin cfg0.N) (w : Fin 128) (b : Fin 3) (j : Fin 1024) :
    bW m c t (ix3 w b j) = aW m c (ix3 w b (colOf t j)) := by
  obtain ⟨-, -, -, e0, e1, e2, -⟩ := idx_facts t
  show V m c main_arg1 (((cfg0.win 1).blk t).view.emb (ix3 w b j)) = _
  rw [V_main_arg1]
  refine congrArg (aW m c) (funext fun a => Fin.ext ?_)
  match a with
  | ⟨0, _⟩ => show win0_1.index t (0 : Fin 3) * 128 + 1 * w.val = w.val; omega
  | ⟨1, _⟩ => show win0_1.index t (1 : Fin 3) * 3 + 1 * b.val = b.val; omega
  | ⟨2, _⟩ => show win0_1.index t (2 : Fin 3) * 1024 + 1 * j.val = t.val * 1024 + j.val; omega

/-- The scales' block. -/
theorem bA_apply (c : Dev nD) (t : Fin cfg0.N) (g : Fin 32) (b : Fin 3) (j : Fin 1024) :
    bA m c t (ix3 g b j) = aA m c (ix3 g b (colOf t j)) := by
  obtain ⟨-, -, -, -, -, -, e0, e1, e2, -⟩ := idx_facts t
  show V m c main_arg2 (((cfg0.win 2).blk t).view.emb (ix3 g b j)) = _
  rw [V_main_arg2]
  refine congrArg (aA m c) (funext fun a => Fin.ext ?_)
  match a with
  | ⟨0, _⟩ => show win0_2.index t (0 : Fin 3) * 32 + 1 * g.val = g.val; omega
  | ⟨1, _⟩ => show win0_2.index t (1 : Fin 3) * 3 + 1 * b.val = b.val; omega
  | ⟨2, _⟩ => show win0_2.index t (2 : Fin 3) * 1024 + 1 * j.val = t.val * 1024 + j.val; omega

/-- The offsets' block, of the array regrouped 32 × 1 × 4096. -/
theorem bQ_apply (c : Dev nD) (t : Fin cfg0.N) (g : Fin 32) (j : Fin 1024) :
    bQ m c t (ix3 g 0 j) = aQ m c (ix2 g (colOf t j)) := by
  obtain ⟨-, -, -, -, -, -, -, -, -, e0, e1, e2, -⟩ := idx_facts t
  show V m c main_v1 (((cfg0.win 3).blk t).view.emb (ix3 g 0 j)) = _
  rw [V_v1]
  refine shapeCast_apply _ _ _ (ix2 g (colOf t j)) ?_
  rewrite [Shape.rowMajor_val_two, Shape.rowMajor_val_three]
  show g.val * 4096 + (t.val * 1024 + j.val)
    = ((win0_3.index t (0 : Fin 3) * 32 + 1 * g.val) * 1 + (win0_3.index t (1 : Fin 3) * 1 + 1 * 0)) * 4096 + (win0_3.index t (2 : Fin 3) * 1024 + 1 * j.val)
  omega

/-- The bias block, of the array regrouped 1 × 4096. -/
theorem bB_apply (c : Dev nD) (t : Fin cfg0.N) (j : Fin 1024) :
    bB m c t (ix2 0 j) = aB m c (ix1 (colOf t j)) := by
  obtain ⟨-, -, -, -, -, -, -, -, -, -, -, -, e0, e1, -⟩ := idx_facts t
  show V m c main_v2 (((cfg0.win 4).blk t).view.emb (ix2 0 j)) = _
  rw [V_v2]
  refine shapeCast_apply _ _ _ (ix1 (colOf t j)) ?_
  rewrite [Shape.rowMajor_val_one, Shape.rowMajor_val_two]
  show t.val * 1024 + j.val = (win0_4.index t (0 : Fin 2) * 1 + 1 * 0) * 4096 + (win0_4.index t (1 : Fin 2) * 1024 + 1 * j.val)
  omega

/-! ## Pass `k`'s loads read at an index -/

/-- Pass `k` as a group number. -/
def grp (k : Fin k0_t1_loop.trips) : Fin 32 := ⟨k.val, Nat.lt_of_lt_of_le k.isLt (Nat.le_of_eq trips_eq)⟩

theorem ldX_apply (x0 : Vec Ideal S32x1x128 .f32) (k : Fin k0_t1_loop.trips) (kl : Fin 128) :
    ldX x0 k (ix3 0 0 kl) = x0 (ix3 (grp k) 0 kl) := by
  show x0 ((Rect.unit (s := S32x1x128) (k0_off1 k) S1x1x128.size (k0_off1_inb k)).idx (ix3 0 0 kl)) = _
  refine congrArg x0 (funext fun a => Fin.ext ?_)
  have e := k0_off1_eq k
  match a with
  | ⟨0, _⟩ => show k0_off1 k (0 : Fin 3) + 1 * 0 = k.val; rw [e]; rfl
  | ⟨1, _⟩ => show k0_off1 k (1 : Fin 3) + 1 * 0 = 0; rw [e]; rfl
  | ⟨2, _⟩ => show k0_off1 k (2 : Fin 3) + 1 * kl.val = kl.val; rw [e]; show 0 + 1 * kl.val = kl.val; omega

theorem ldW_apply (x1 : Vec Ideal S128x3x1024 .i32) (k : Fin k0_t1_loop.trips) (w : Fin 4) (b : Fin 3) (j : Fin 1024) :
    ldW x1 k (ix3 w b j) = x1 (ix3 (⟨4 * k.val + w.val, by have := (grp k).isLt; have : (grp k).val = k.val := rfl; have := w.isLt; omega⟩ : Fin 128) b j) := by
  show x1 ((Rect.unit (s := S128x3x1024) (k0_off2 k) S4x3x1024.size (k0_off2_inb k)).idx (ix3 w b j)) = _
  refine congrArg x1 (funext fun a => Fin.ext ?_)
  have e := k0_off2_eq k
  match a with
  | ⟨0, _⟩ => show k0_off2 k (0 : Fin 3) + 1 * w.val = 4 * k.val + w.val; rw [e]; show 4 * k.val + 1 * w.val = _; omega
  | ⟨1, _⟩ => show k0_off2 k (1 : Fin 3) + 1 * b.val = b.val; rw [e]; show 0 + 1 * b.val = _; omega
  | ⟨2, _⟩ => show k0_off2 k (2 : Fin 3) + 1 * j.val = j.val; rw [e]; show 0 + 1 * j.val = _; omega

theorem ldA_apply (x2 : Vec Ideal S32x3x1024 .f32) (k : Fin k0_t1_loop.trips) (b : Fin 3) (j : Fin 1024) :
    ldA x2 k (ix3 0 b j) = x2 (ix3 (grp k) b j) := by
  show x2 ((Rect.unit (s := S32x3x1024) (k0_off3 k) S1x3x1024.size (k0_off3_inb k)).idx (ix3 0 b j)) = _
  refine congrArg x2 (funext fun a => Fin.ext ?_)
  have e := k0_off3_eq k
  match a with
  | ⟨0, _⟩ => show k0_off3 k (0 : Fin 3) + 1 * 0 = k.val; rw [e]; rfl
  | ⟨1, _⟩ => show k0_off3 k (1 : Fin 3) + 1 * b.val = b.val; rw [e]; show 0 + 1 * b.val = _; omega
  | ⟨2, _⟩ => show k0_off3 k (2 : Fin 3) + 1 * j.val = j.val; rw [e]; show 0 + 1 * j.val = _; omega

theorem ldQ_apply (x3 : Vec Ideal S32x1x1024 .f32) (k : Fin k0_t1_loop.trips) (j : Fin 1024) :
    ldQ x3 k (ix3 0 0 j) = x3 (ix3 (grp k) 0 j) := by
  show x3 ((Rect.unit (s := S32x1x1024) (k0_off4 k) S1x1x1024.size (k0_off4_inb k)).idx (ix3 0 0 j)) = _
  refine congrArg x3 (funext fun a => Fin.ext ?_)
  have e := k0_off4_eq k
  match a with
  | ⟨0, _⟩ => show k0_off4 k (0 : Fin 3) + 1 * 0 = k.val; rw [e]; rfl
  | ⟨1, _⟩ => show k0_off4 k (1 : Fin 3) + 1 * 0 = 0; rw [e]; rfl
  | ⟨2, _⟩ => show k0_off4 k (2 : Fin 3) + 1 * j.val = j.val; rw [e]; show 0 + 1 * j.val = _; omega

end Cert.KernelIdeal.LutBlocks

end
-- ==== Proof.LutTripAt.lean ====
/-
  One pass of the kernel's loop over the groups, read at a column.

  The pass updates the accumulator row four times.  Three updates, one per bit plane `b`, add
  (2·α_b) · (Σ_k x_k · bit_b(k)) where the sum is a row-by-matrix product of the group's 128 inputs with the
  128 × 1024 matrix of the plane's bits; the matrix is made from four packed words per column by repeating each word
  over 32 rows, shifting row `r` of a word right by `r` and keeping the lowest bit, so that row `kl` of the
  matrix is bit `kl mod 32` of word `kl / 32`.  The fourth update adds (Σ_k x_k) · (q − Σ_b α_b).  Below, every
  stored value of the pass is read at an index, and the four are chained into the pass's closed form at column `j`.
-/
import proofs.«419244_j24369644437526_3_alg».proof.Proof.LutTrip
import proofs.«419244_j24369644437526_3_alg».proof.Proof.LutSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LutTripAt

open Cert.KernelIdeal Cert.KernelIdeal.Gen Cert.KernelIdeal.LutTrip Cert.LutSpec Idealize.ShloMosaic Idealize.ShloMosaic.ValueIdx

/-! ## The loads reshaped: unit axes dropped, and the two lane sums -/

/-- The group's inputs with the block's unit axis dropped. -/
theorem pay4_apply (v14 : Vec Ideal S1x1x128 .f32) (kl : Fin 128) :
    k0_pay4 (F := Ideal) v14 (ix2 0 kl) = v14 (ix3 0 0 kl) := by
  unfold k0_pay4
  exact shapeCast_1ab_ab_apply v14 _ 0 kl

/-- Narrowing the inputs' format changes no value. -/
theorem pay5_apply (v14 : Vec Ideal S1x1x128 .f32) (kl : Fin 128) :
    k0_pay5 (F := Ideal) v14 (ix2 0 kl) = v14 (ix3 0 0 kl) := by
  unfold k0_pay5
  exact (truncf_apply (ψ := .bf16) (k0_pay4 (F := Ideal) v14) bitsLt_bf16_f32 (ix2 0 kl)).trans (pay4_apply v14 kl)

/-- The scales with the block's unit axis dropped. -/
theorem pay7_apply (v24 : Vec Ideal S1x3x1024 .f32) (b : Fin 3) (j : Fin 1024) :
    k0_pay7 (F := Ideal) v24 (ix2 b j) = v24 (ix3 0 b j) := by
  unfold k0_pay7
  exact shapeCast_1ab_ab_apply v24 _ b j

/-- The offsets with the block's unit axis dropped. -/
theorem pay8_apply (v27 : Vec Ideal S1x1x1024 .f32) (j : Fin 1024) :
    k0_pay8 (F := Ideal) v27 (ix2 0 j) = v27 (ix3 0 0 j) := by
  unfold k0_pay8
  exact shapeCast_1ab_ab_apply v27 _ 0 j

/-- The sum of the group's inputs, kept as a 1 × 1 array. -/
theorem pay6_apply (v14 : Vec Ideal S1x1x128 .f32) :
    k0_pay6 (F := Ideal) v14 (ix2 0 0) = ∑ kl : Fin 128, v14 (ix3 0 0 kl) := by
  unfold k0_pay6
  refine (shapeCast_a_1a_apply _ _ 0 0).trans ?_
  refine (Ideal.multiReduction_add_single (k0_pay4 (F := Ideal) v14) 0x00000000#32 reduces_S1x128_S1 (.inl rfl) rfl (ix1 0)).trans ?_
  show ∑ kl : Fin 128, k0_pay4 (F := Ideal) v14 (reduces_S1x128_S1.lift (ix1 0) kl) = _
  refine Finset.sum_congr rfl fun kl _ => ?_
  refine Eq.trans (congrArg (k0_pay4 (F := Ideal) v14) ?_) (pay4_apply v14 kl)
  exact funext fun a => Fin.ext (by match a with | ⟨0, _⟩ => rfl | ⟨1, _⟩ => rfl)

/-- The sum of the three scales of a column. -/
theorem pay9_apply (v24 : Vec Ideal S1x3x1024 .f32) (j : Fin 1024) :
    k0_pay9 (F := Ideal) v24 (ix2 0 j) = ∑ b : Fin 3, v24 (ix3 0 b j) := by
  unfold k0_pay9
  refine (shapeCast_a_1a_apply _ _ 0 j).trans ?_
  refine (Ideal.multiReduction_add_single (k0_pay7 (F := Ideal) v24) 0x00000000#32 reduces_S3x1024_S1024 (.inl rfl) rfl (ix1 j)).trans ?_
  show ∑ b : Fin 3, k0_pay7 (F := Ideal) v24 (reduces_S3x1024_S1024.lift (ix1 j) b) = _
  refine Finset.sum_congr rfl fun b _ => ?_
  refine Eq.trans (congrArg (k0_pay7 (F := Ideal) v24) ?_) (pay7_apply v24 b j)
  exact funext fun a => Fin.ext (by match a with | ⟨0, _⟩ => rfl | ⟨1, _⟩ => rfl)

/-- A row stored back unchanged. -/
theorem pay11_apply (v47 : FVec Ideal S1x1024 .f32) (i : S1x1024.Idx) :
    k0_pay11 (F := Ideal) v47 i = v47 i := by
  unfold k0_pay11
  exact congrFun (shapeCast_self v47 _) i

/-- The last update: the row plus (Σ x) · (q − Σ α). -/
theorem pay2_apply (v18 : FVec Ideal S1x1 .f32) (v28 : FVec Ideal S1x1024 .f32) (v30 : FVec Ideal S1x1024 .f32)
    (v91 : Vec Ideal S1x1024 .f32) (j : Fin 1024) :
    k0_pay2 (F := Ideal) v18 v28 v30 v91 (ix2 0 j) = v91 (ix2 0 j) + v18 (ix2 0 0) * (v28 (ix2 0 j) - v30 (ix2 0 j)) := by
  unfold k0_pay2
  refine (congrFun (shapeCast_self _ _) (ix2 0 j)).trans ?_
  refine (addf_apply _ _ _).trans ?_
  refine congrArg (v91 (ix2 0 j) + ·) ?_
  refine (mulf_apply _ _ _).trans ?_
  refine congrArg₂ (· * ·) ?_ (subf_apply _ _ _)
  refine broadcastTo_apply v18 _ (ix2 0 j) (ix2 0 0) fun a => ?_
  match a with
  | ⟨0, _⟩ => rfl
  | ⟨1, _⟩ => rfl

/-! ## The bits of one plane, as a 128 × 1024 matrix of words -/

/-- Row `kl` of the matrix is row `kl mod 32` of the copy of word `kl / 32`. -/
theorem rows_apply (x : IVec S4x32x1024 32) (kl : Fin 128) (j : Fin 1024) :
    shapeCast S128x1024 x shapeCasts_S4x32x1024_S128x1024 (ix2 kl j)
      = x (ix3 (⟨kl.val / 32, by have := kl.isLt; omega⟩ : Fin 4) (⟨kl.val % 32, Nat.mod_lt _ (by decide)⟩ : Fin 32) j) := by
  refine shapeCast_apply x _ _ _ ?_
  rw [Shape.rowMajor_val_three, Shape.rowMajor_val_two]
  show (kl.val / 32 * 32 + kl.val % 32) * 1024 + j.val = kl.val * 1024 + j.val
  have := Nat.div_add_mod kl.val 32
  omega

/-- The plane's words, cut out of the loaded block along the plane axis at `o`, each repeated over 32 rows. -/
theorem words_apply (v22 : Vec Ideal S4x3x1024 .i32) (o : Nat) (h : S4x3x1024.Slices ![0, o, 0] S4x1x1024)
    (b : Fin 3) (hb : b.val = o) (w : Fin 4) (r : Fin 32) (j : Fin 1024) :
    broadcastTo S4x32x1024
        (shapeCast S4x1x1024 (shapeCast S4x1024 (extractStridedSlice S4x1x1024 ![0, o, 0] v22 h)
          shapeCasts_S4x1x1024_S4x1024) shapeCasts_S4x1024_S4x1x1024)
        broadcasts_S4x1x1024_S4x32x1024 (ix3 w r j)
      = v22 (ix3 w b j) := by
  rw [shapeCast_shapeCast]
  refine (broadcastTo_apply _ _ (ix3 w r j) (ix3 w 0 j) fun a => ?_).trans ?_
  · match a with
    | ⟨0, _⟩ => rfl
    | ⟨1, _⟩ => rfl
    | ⟨2, _⟩ => rfl
  · exact slice3_axis1_apply o v22 h w 0 j b (by rw [hb]; rfl)

/-- The shift amounts: row `r` of every copy shifts by `r`. -/
theorem shifts_apply (v4 : IVec S1x32x1 32) (w : Fin 4) (r : Fin 32) (j : Fin 1024) :
    broadcastTo S4x32x1024 v4 broadcasts_S1x32x1_S4x32x1024 (ix3 w r j) = v4 (ix3 0 r 0) := by
  refine broadcastTo_apply _ _ (ix3 w r j) (ix3 0 r 0) fun a => ?_
  match a with
  | ⟨0, _⟩ => rfl
  | ⟨1, _⟩ => rfl
  | ⟨2, _⟩ => rfl

/-- The lane counter along the middle axis reads its coordinate. -/
theorem iota_apply (r : Fin 32) :
    iota .tc S1x32x1 32 [1] iota_S1x32x1_d1_w32 (ix3 0 r 0) = BitVec.ofNat 32 r.val :=
  iota_single_apply .tc S1x32x1 32 1 iota_S1x32x1_d1_w32 (ix3 0 r 0)

/-- A shifted and masked word, entry by entry. -/
theorem mask_shift_apply {S : Shape} (x y : IVec S 32) (c : BitVec 32) (i : S.Idx) :
    andi (shrsi x y) (broadcast S c) i = IntOp.andi (IntOp.shrsi .vector (x i) (y i)) c := rfl

/-- Bit `kl mod 32` of word `kl / 32` of the loaded words, plane `b`, column `j`: 0 or 1 as a word. -/
def bitOf (v22 : Vec Ideal S4x3x1024 .i32) (kl : Fin 128) (b : Fin 3) (j : Fin 1024) : BitVec 32 :=
  ((v22 (ix3 (⟨kl.val / 32, by have := kl.isLt; omega⟩ : Fin 4) b j)).sshiftRight' (BitVec.ofNat 32 (kl.val % 32))) &&& 1#32

/-- Entry (kl, j) of the plane's matrix is that bit, when the shift vector counts the rows of a word. -/
theorem bits_apply (v4 : IVec S1x32x1 32) (hv4 : ∀ r : Fin 32, v4 (ix3 0 r 0) = BitVec.ofNat 32 r.val)
    (v22 : Vec Ideal S4x3x1024 .i32) (o : Nat) (h : S4x3x1024.Slices ![0, o, 0] S4x1x1024) (b : Fin 3) (hb : b.val = o)
    (kl : Fin 128) (j : Fin 1024) :
    shapeCast S128x1024
        (andi (shrsi (broadcastTo S4x32x1024
                        (shapeCast S4x1x1024 (shapeCast S4x1024 (extractStridedSlice S4x1x1024 ![0, o, 0] v22 h)
                          shapeCasts_S4x1x1024_S4x1024) shapeCasts_S4x1024_S4x1x1024)
                        broadcasts_S4x1x1024_S4x32x1024)
                     (broadcastTo S4x32x1024 v4 broadcasts_S1x32x1_S4x32x1024))
              (broadcast S4x32x1024 1#32))
        shapeCasts_S4x32x1024_S128x1024 (ix2 kl j)
      = bitOf v22 kl b j := by
  refine (rows_apply _ kl j).trans ?_
  refine (mask_shift_apply _ _ _ _).trans ?_
  rw [words_apply v22 o h b hb, shifts_apply, hv4, shrsi_ofNat_lt _ _ _ (Nat.mod_lt _ (by decide))]
  rfl

/-! ## The row-by-matrix product -/

theorem lhs_dot_0 (i : S1x1024.Idx) (q : dot_S1x128_S128x1024_S1x1024_1_0_0_1_n_n.contr.Idx) :
    (dot_S1x128_S128x1024_S1x1024_1_0_0_1_n_n.lhsIdx i q 0).val = (i 0).val := by
  unfold DotDims.lhsIdx
  rw [dif_neg (show ¬(0 : Fin S1x128.rank) ∈ dot_S1x128_S128x1024_S1x1024_1_0_0_1_n_n.lhsBatch by decide), dif_pos (show (0 : Fin S1x128.rank) ∈ dot_S1x128_S128x1024_S1x1024_1_0_0_1_n_n.lhsNonContracting by decide)]
  rfl
theorem lhs_dot_1 (i : S1x1024.Idx) (q : dot_S1x128_S128x1024_S1x1024_1_0_0_1_n_n.contr.Idx) :
    (dot_S1x128_S128x1024_S1x1024_1_0_0_1_n_n.lhsIdx i q 1).val = (q ⟨0, by decide⟩).val :=
  dot_S1x128_S128x1024_S1x1024_1_0_0_1_n_n.lhsIdx_val_of_single rfl i q
theorem rhs_dot_0 (i : S1x1024.Idx) (q : dot_S1x128_S128x1024_S1x1024_1_0_0_1_n_n.contr.Idx) :
    (dot_S1x128_S128x1024_S1x1024_1_0_0_1_n_n.rhsIdx i q 0).val = (q ⟨0, by decide⟩).val :=
  dot_S1x128_S128x1024_S1x1024_1_0_0_1_n_n.rhsIdx_val_of_single rfl i q
theorem rhs_dot_1 (i : S1x1024.Idx) (q : dot_S1x128_S128x1024_S1x1024_1_0_0_1_n_n.contr.Idx) :
    (dot_S1x128_S128x1024_S1x1024_1_0_0_1_n_n.rhsIdx i q 1).val = (i 1).val := by
  unfold DotDims.rhsIdx
  rw [dif_neg (show ¬(1 : Fin S128x1024.rank) ∈ dot_S1x128_S128x1024_S1x1024_1_0_0_1_n_n.rhsBatch by decide), dif_pos (show (1 : Fin S128x1024.rank) ∈ dot_S1x128_S128x1024_S1x1024_1_0_0_1_n_n.rhsNonContracting by decide)]
  rfl

/-- A 1 × 128 row times a 128 × 1024 matrix into a zero row: at column `j`, the sum over the 128 positions. -/
theorem matmul_row_apply (L : FVec Ideal S1x128 .bf16) (R : FVec Ideal S128x1024 .bf16) (j : Fin 1024) :
    matmul dot_S1x128_S128x1024_S1x1024_1_0_0_1_n_n none L R (constant (F := Ideal) S1x1024 .f32 0x00000000#32) (ix2 0 j)
      = ∑ kl : Fin 128, L (ix2 0 kl) * R (ix2 kl j) := by
  refine (Ideal.matmul_constant_zero_apply dot_S1x128_S128x1024_S1x1024_1_0_0_1_n_n none L R (ix2 0 j)).trans ?_
  rw [← Equiv.sum_comp (ValueIdx.contrEquiv1 dot_S1x128_S128x1024_S1x1024_1_0_0_1_n_n 128 rfl rfl).symm]
  refine Finset.sum_congr rfl fun k _ => ?_
  have hk := ValueIdx.contrEquiv1_symm_val dot_S1x128_S128x1024_S1x1024_1_0_0_1_n_n 128 rfl rfl k
  have el : dot_S1x128_S128x1024_S1x1024_1_0_0_1_n_n.lhsIdx (ix2 0 j) ((ValueIdx.contrEquiv1 dot_S1x128_S128x1024_S1x1024_1_0_0_1_n_n 128 rfl rfl).symm k) = ix2 0 k := funext fun a => Fin.ext (by
    match a with
    | ⟨0, _⟩ => exact lhs_dot_0 _ _
    | ⟨1, _⟩ => exact (lhs_dot_1 _ _).trans hk)
  have er : dot_S1x128_S128x1024_S1x1024_1_0_0_1_n_n.rhsIdx (ix2 0 j) ((ValueIdx.contrEquiv1 dot_S1x128_S128x1024_S1x1024_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## One plane's update -/

/-- The row plus (2·α_b) · m, for any row `m`; the plane's scales are row `b` of the 3 × 1024 array of scales. -/
theorem update_apply (acc : Vec Ideal S1x1024 .f32) (v25 : FVec Ideal S3x1024 .f32) (o : Nat)
    (h' : S3x1024.Slices ![o, 0] S1x1024) (b : Fin 3) (hb : b.val = o) (m : FVec Ideal S1x1024 .f32) (j : Fin 1024) :
    addf acc (mulf (mulf (broadcast S1x1024 (Scalar.ofBits (F := Ideal) .f32 0x40000000#32))
        (extractStridedSlice S1x1024 ![o, 0] v25 h')) m) (ix2 0 j)
      = acc (ix2 0 j) + (twoE * v25 (ix2 b j)) * m (ix2 0 j) := by
  refine (addf_apply _ _ _).trans ?_
  refine congrArg (acc (ix2 0 j) + ·) ?_
  refine (mulf_apply _ _ _).trans ?_
  refine congrArg (· * m (ix2 0 j)) ?_
  refine (mulf_apply _ _ _).trans ?_
  refine congrArg (twoE * ·) ?_
  exact slice2_axis0_apply o v25 h' 0 j b (by rw [hb]; rfl)

/-- One plane's update in full: the row plus (2·α_b) · Σ_k x_k · bit_b(k). -/
theorem plane_apply (v4 : IVec S1x32x1 32) (hv4 : ∀ r : Fin 32, v4 (ix3 0 r 0) = BitVec.ofNat 32 r.val)
    (v16 : FVec Ideal S1x128 .bf16) (v22 : Vec Ideal S4x3x1024 .i32) (v25 : FVec Ideal S3x1024 .f32)
    (acc : Vec Ideal S1x1024 .f32) (o : Nat) (h : S4x3x1024.Slices ![0, o, 0] S4x1x1024)
    (h' : S3x1024.Slices ![o, 0] S1x1024) (b : Fin 3) (hb : b.val = o) (j : Fin 1024) :
    addf acc (mulf (mulf (broadcast S1x1024 (Scalar.ofBits (F := Ideal) .f32 0x40000000#32))
        (extractStridedSlice S1x1024 ![o, 0] v25 h'))
        (matmul dot_S1x128_S128x1024_S1x1024_1_0_0_1_n_n none v16
          (sitofp (F := Ideal) .bf16 (shapeCast S128x1024
            (andi (shrsi (broadcastTo S4x32x1024
                            (shapeCast S4x1x1024 (shapeCast S4x1024 (extractStridedSlice S4x1x1024 ![0, o, 0] v22 h)
                              shapeCasts_S4x1x1024_S4x1024) shapeCasts_S4x1024_S4x1x1024)
                            broadcasts_S4x1x1024_S4x32x1024)
                         (broadcastTo S4x32x1024 v4 broadcasts_S1x32x1_S4x32x1024))
                  (broadcast S4x32x1024 1#32))
            shapeCasts_S4x32x1024_S128x1024))
          (constant (F := Ideal) S1x1024 .f32 0x00000000#32))) (ix2 0 j)
      = acc (ix2 0 j) + (twoE * v25 (ix2 b j)) * ∑ kl : Fin 128, v16 (ix2 0 kl) * (((bitOf v22 kl b j).toInt : ℝ) : EReal) := by
  refine (update_apply acc v25 o h' b hb _ j).trans ?_
  refine congrArg (fun t => acc (ix2 0 j) + (twoE * v25 (ix2 b j)) * t) ?_
  refine (matmul_row_apply v16 _ j).trans ?_
  refine Finset.sum_congr rfl fun kl _ => ?_
  refine congrArg (v16 (ix2 0 kl) * ·) ?_
  refine (sitofp_apply _ _).trans ?_
  exact congrArg (fun w : BitVec 32 => (((w.toInt : ℝ)) : EReal)) (bits_apply v4 hv4 v22 o h b hb kl j)

/-! ## The three plane payloads -/

theorem pay10_apply (v4 : IVec S1x32x1 32) (hv4 : ∀ r : Fin 32, v4 (ix3 0 r 0) = BitVec.ofNat 32 r.val)
    (v14 : Vec Ideal S1x1x128 .f32) (v22 : Vec Ideal S4x3x1024 .i32) (v24 : Vec Ideal S1x3x1024 .f32)
    (a : Vec Ideal S1x1024 .f32) (j : Fin 1024) :
    k0_pay10 (F := Ideal) v4 v14 v22 v24 a (ix2 0 j)
      = a (ix2 0 j) + (twoE * v24 (ix3 0 0 j)) * ∑ kl : Fin 128, v14 (ix3 0 0 kl) * (((bitOf v22 kl 0 j).toInt : ℝ) : EReal) := by
  unfold k0_pay10
  refine (plane_apply v4 hv4 (k0_pay5 (F := Ideal) v14) v22 (k0_pay7 (F := Ideal) v24) a 0 _ _ 0 rfl j).trans ?_
  rw [pay7_apply]
  simp only [pay5_apply]

theorem pay12_apply (v4 : IVec S1x32x1 32) (hv4 : ∀ r : Fin 32, v4 (ix3 0 r 0) = BitVec.ofNat 32 r.val)
    (v16 : FVec Ideal S1x128 .bf16) (v22 : Vec Ideal S4x3x1024 .i32) (v25 : FVec Ideal S3x1024 .f32)
    (a : Vec Ideal S1x1024 .f32) (j : Fin 1024) :
    k0_pay12 (F := Ideal) v4 v16 v22 v25 a (ix2 0 j)
      = a (ix2 0 j) + (twoE * v25 (ix2 1 j)) * ∑ kl : Fin 128, v16 (ix2 0 kl) * (((bitOf v22 kl 1 j).toInt : ℝ) : EReal) := by
  unfold k0_pay12
  refine (congrFun (shapeCast_self _ _) (ix2 0 j)).trans ?_
  exact plane_apply v4 hv4 v16 v22 v25 a 1 _ _ 1 rfl j

theorem pay13_apply (v4 : IVec S1x32x1 32) (hv4 : ∀ r : Fin 32, v4 (ix3 0 r 0) = BitVec.ofNat 32 r.val)
    (v16 : FVec Ideal S1x128 .bf16) (v22 : Vec Ideal S4x3x1024 .i32) (v25 : FVec Ideal S3x1024 .f32)
    (a : Vec Ideal S1x1024 .f32) (j : Fin 1024) :
    k0_pay13 (F := Ideal) v4 v16 v22 v25 a (ix2 0 j)
      = a (ix2 0 j) + (twoE * v25 (ix2 2 j)) * ∑ kl : Fin 128, v16 (ix2 0 kl) * (((bitOf v22 kl 2 j).toInt : ℝ) : EReal) := by
  unfold k0_pay13
  refine (congrFun (shapeCast_self _ _) (ix2 0 j)).trans ?_
  exact plane_apply v4 hv4 v16 v22 v25 a 2 _ _ 2 rfl j

/-! ## The pass -/

theorem tripVal_apply (v14 : Vec Ideal S1x1x128 .f32) (v22 : Vec Ideal S4x3x1024 .i32) (v24 : Vec Ideal S1x3x1024 .f32) (v27 : Vec Ideal S1x1x1024 .f32) (a : Vec Ideal S1x1024 .f32) (j : Fin 1024) :
    tripVal (F := Ideal) (iota .tc S1x32x1 32 [1] iota_S1x32x1_d1_w32) v14 v22 v24 v27 a (ix2 0 j)
      = (((a (ix2 0 j)
            + (twoE * v24 (ix3 0 0 j)) * (∑ kl : Fin 128, v14 (ix3 0 0 kl) * (((bitOf v22 kl 0 j).toInt : ℝ) : EReal)))
            + (twoE * v24 (ix3 0 1 j)) * (∑ kl : Fin 128, v14 (ix3 0 0 kl) * (((bitOf v22 kl 1 j).toInt : ℝ) : EReal)))
            + (twoE * v24 (ix3 0 2 j)) * (∑ kl : Fin 128, v14 (ix3 0 0 kl) * (((bitOf v22 kl 2 j).toInt : ℝ) : EReal)))
          + (∑ kl : Fin 128, v14 (ix3 0 0 kl)) * (v27 (ix3 0 0 j) - ∑ b : Fin 3, v24 (ix3 0 b j)) := by
  unfold tripVal
  rw [pay2_apply, pay13_apply _ iota_apply, pay12_apply _ iota_apply, pay11_apply, pay10_apply _ iota_apply,
    pay6_apply, pay8_apply, pay9_apply]
  simp only [pay5_apply, pay7_apply]

end Cert.KernelIdeal.LutTripAt

end
-- ==== Proof.LutKernel.lean ====
/-
  The kernel's result array, column by column, is the accumulated form.

  At grid point `t` the output row's column `j` is column `1024·t + j` of the result.  By induction over the passes the
  accumulator row after `k` passes holds, at column `j`, the accumulated form's `accE` after `k` groups at column
  `1024·t + j` (each pass read at an index, its loads traced back to the argument arrays); the stored row adds the bias.
  The four points' rows tile the 1 × 4096 result, so the whole array is the accumulated form `KE` at every column.
-/
import proofs.«419244_j24369644437526_3_alg».proof.Proof.LutBlocks
import proofs.«419244_j24369644437526_3_alg».proof.Proof.LutTripAt

set_option maxRecDepth 16384

noncomputable section

namespace Cert.KernelIdeal.LutKernel

open Cert.KernelIdeal Cert.KernelIdeal.Gen Cert.KernelIdeal.LutRun Cert.KernelIdeal.LutTrip Cert.KernelIdeal.LutTripAt
open Cert.KernelIdeal.LutBlocks Cert.LutSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The bit a pass extracts from its loaded words is the bit of the packed array at the pass's group. -/
theorem bitOf_ld (c : Dev nD) (t : Fin cfg0.N) (k : Fin k0_t1_loop.trips) (kl : Fin 128) (b : Fin 3) (j : Fin 1024) :
    bitOf (ldW (bW m c t) k) kl b j = bitw (aW m c) (posOf (grp k) kl) b (colOf t j) := by
  unfold bitOf bitw
  rw [ldW_apply, bW_apply]
  have e1 : ∀ h, (⟨4 * k.val + kl.val / 32, h⟩ : Fin 128) = wordOf (posOf (grp k) kl) := fun h =>
    Fin.ext (by show 4 * k.val + kl.val / 32 = (k.val * 128 + kl.val) / 32; omega)
  have e2 : kl.val % 32 = (posOf (grp k) kl).val % 32 := by
    show kl.val % 32 = (k.val * 128 + kl.val) % 32; omega
  dsimp only
  rw [e1, e2]

/-- The zero row reads the programs' zero. -/
theorem pay1_apply (j : Fin 1024) : (k0_pay1 (F := Ideal)) (ix2 0 j) = zeroE := by
  unfold k0_pay1
  rw [shapeCast_self]
  rfl

/-- THE ACCUMULATOR at column `j` of point `t` after `k` passes is the accumulated form after `k` groups. -/
theorem accRow_apply (c : Dev nD) (t : Fin cfg0.N) (j : Fin 1024) : ∀ k : Nat, k ≤ 32 →
    accRow (bX m c t) (bW m c t) (bA m c t) (bQ m c t) k (ix2 0 j)
      = accE (aX m c) (aW m c) (aA m c) (aQ m c) (colOf t j) k
  | 0, _ => by rw [accE_zero]; exact pay1_apply j
  | k + 1, h => by
    have ih := accRow_apply c t j k (Nat.le_of_succ_le h)
    have hk : k < k0_t1_loop.trips := by rw [trips_eq]; omega
    have e := accRow_succ (bX m c t) (bW m c t) (bA m c t) (bQ m c t) ⟨k, hk⟩
    have e' := accE_succ (aX m c) (aW m c) (aA m c) (aQ m c) (colOf t j) ⟨k, by omega⟩
    dsimp only at e e'
    rw [e, e', tripVal_apply, ih]
    unfold step planeSum groupSum alphaSum
    have hA : ∀ b : Fin 3, ldA (bA m c t) ⟨k, hk⟩ (ix3 0 b j) = aA m c (ix3 (grp ⟨k, hk⟩) b (colOf t j)) :=
      fun b => (ldA_apply (bA m c t) ⟨k, hk⟩ b j).trans (bA_apply m c t _ b j)
    have hX : ∀ kl : Fin 128, ldX (bX m c t) ⟨k, hk⟩ (ix3 0 0 kl) = aX m c (ix2 0 (posOf (grp ⟨k, hk⟩) kl)) :=
      fun kl => (ldX_apply (bX m c t) ⟨k, hk⟩ kl).trans (bX_apply m c t _ kl)
    have hQ : ldQ (bQ m c t) ⟨k, hk⟩ (ix3 0 0 j) = aQ m c (ix2 (grp ⟨k, hk⟩) (colOf t j)) :=
      (ldQ_apply (bQ m c t) ⟨k, hk⟩ j).trans (bQ_apply m c t _ j)
    have hB : ∀ (kl : Fin 128) (b : Fin 3), bitOf (ldW (bW m c t) ⟨k, hk⟩) kl b j = bitw (aW m c) (posOf (grp ⟨k, hk⟩) kl) b (colOf t j) :=
      fun kl b => bitOf_ld m c t ⟨k, hk⟩ kl b j
    rw [hQ, hA 0, hA 1, hA 2,
      Finset.sum_congr rfl (fun b _ => hA b),
      Finset.sum_congr rfl (fun kl _ => hX kl),
      Finset.sum_congr rfl (fun kl _ => congrArg₂ (· * ·) (hX kl) (congrArg (fun w : BitVec 32 => (((w.toInt : ℤ) : ℝ) : EReal)) (hB kl 0))),
      Finset.sum_congr rfl (fun kl _ => congrArg₂ (· * ·) (hX kl) (congrArg (fun w : BitVec 32 => (((w.toInt : ℤ) : ℝ) : EReal)) (hB kl 1))),
      Finset.sum_congr rfl (fun kl _ => congrArg₂ (· * ·) (hX kl) (congrArg (fun w : BitVec 32 => (((w.toInt : ℤ) : ℝ) : EReal)) (hB kl 2)))]
    rfl

/-- The result array the certificate claims: the accumulated form at each column. -/
def Gout (c : Dev nD) : S1x4096.Idx → EReal :=
  fun i => KE (aX m c) (aW m c) (aA m c) (aQ m c) (aB m c) (i 1)

/-- WHAT POINT `t` WRITES BACK is its block of that array. -/
theorem flushed5_eq (c : Dev nD) (t : Fin cfg0.N) :
    (dats m 0 c).flushed 5 t = ((cfg0.win 5).blk t).view.read (Elt Ideal) (Gout m c) := by
  rw [Value.flushed5_A, out_eq]
  obtain ⟨-, -, -, -, -, -, -, -, -, -, -, -, -, -, e0, e1⟩ := idx_facts t
  funext y
  have hy : y = ix2 (0 : Fin 1) (⟨(y 1).val, (y 1).isLt⟩ : Fin 1024) := by
    funext a
    match a with
    | ⟨0, _⟩ => exact Fin.ext (Nat.lt_one_iff.mp (y 0).isLt)
    | ⟨1, _⟩ => rfl
  obtain ⟨j, hj⟩ : ∃ j : Fin 1024, y = ix2 (0 : Fin 1) j := ⟨_, hy⟩
  subst hj
  show k0_pay3 (accRow (bX m c t) (bW m c t) (bA m c t) (bQ m c t) 32) (bB m c t) (ix2 0 j)
    = Gout m c (((cfg0.win 5).blk t).view.emb (ix2 0 j))
  have ecol : (((cfg0.win 5).blk t).view.emb (ix2 (0 : Fin 1) j)) 1 = colOf t j :=
    Fin.ext (by show win0_5.index t (1 : Fin 2) * 1024 + 1 * j.val = t.val * 1024 + j.val; omega)
  unfold Gout KE k0_pay3
  rw [ecol, shapeCast_self, addf_apply, accRow_apply m c t j 32 (le_refl _), bB_apply]

/-- The four points' blocks tile the result array. -/
theorem cover5 (c : Dev nD) (i : S1x4096.Idx) :
    ∃ t : Fin cfg0.N, (cfg0.win 5).flush t = true ∧ i ∈ ((cfg0.win 5).blk t).view.set := by
  have hi0 : (i 0).val < 1 := (i 0).isLt
  have hi1 : (i 1).val < 4096 := (i 1).isLt
  have hN : cfg0.N = 4 := Gen.N_0
  let t : Fin cfg0.N := ⟨(i 1).val / 1024, by rw [hN]; omega⟩
  obtain ⟨-, -, -, -, -, -, -, -, -, -, -, -, -, -, e0, e1⟩ := idx_facts t
  have et : t.val = (i 1).val / 1024 := rfl
  refine ⟨t, flush0_5 t, ?_⟩
  show i ∈ ((View.whole main_v3).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 1024 ≤ (i 1).val ∧ (i 1).val < win0_5.index t (1 : Fin 2) * 1024 + 1024; omega

/-- THE RESULT ARRAY after the run. -/
theorem final5 (c : Dev nD) : (dats m 0 c).arrAt 5 cfg0.N = Gout m c :=
  (dats m 0 c).arrAt_eq_of_cover 5 (Gout m c) (fun t _ => flushed5_eq m c t) (cover5 c)

/-- The kernel's run, read: the result array is the accumulated form, the arguments are unchanged. -/
theorem run : θ_run defs (onTc (τ := τ) (main (F := Ideal))) ⟨m, fun _ => 0, ρ⟩ fun r => ∀ c : Dev nD,
      r.2.mem ((c : Thread nD τ).loc main_v3) = Gout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (Value.run_blocks m ρ)

end Cert.KernelIdeal.LutKernel

end
-- ==== Proof.LutRef.lean ====
/-
  The reference program, read at one column of its result, is the reference form of the binary-coded quantised
  matrix–vector product: the sum over the 4096 input positions of x_k times the dequantised weight, plus the bias.

  The program reaches the weight through broadcasts and reshapes.  Row-major, position k of 4096 splits as
  (k / 32, k mod 32) over 128 words of 32 bits and as (k / 128, k mod 128) over 32 groups of 128 positions; those two
  splittings are the only arithmetic here.  Everything else is reading each operation at an index.
-/
import proofs.«419244_j24369644437526_3_alg».proof.Proof.Gen.ReferenceIdeal.Read
import proofs.«419244_j24369644437526_3_alg».proof.Proof.LutSpec
import Idealize.ShloMosaic.Lib.ValueIdx

noncomputable section

namespace Cert.ReferenceIdeal.LutRef

open Cert.ReferenceIdeal Cert.ReferenceIdeal.Gen Cert.ReferenceIdeal.Read Idealize.ShloMosaic Idealize.ShloMosaic.ValueIdx

/-! ## Where the broadcasts and reshapes read -/

/-- A word broadcast along the bit axis is read at (word, plane, column). -/
private theorem word_read (w : Fin 128) (j : Fin 32) (b : Fin 3) (n : Fin 4096) :
    idx_main_v1 (idx_main_v3 (ix4 w j b n)) = ix3 w b n := by
  funext a; match a with | ⟨0, _⟩ => rfl | ⟨1, _⟩ => rfl | ⟨2, _⟩ => rfl

/-- The shift amount broadcast along the other three axes is the bit position. -/
private theorem shift_read (w : Fin 128) (j : Fin 32) (b : Fin 3) (n : Fin 4096) :
    (idx_main_v2 (idx_main_v4 (ix4 w j b n)) 0).val = j.val := rfl

/-- Row-major, (position, plane, column) of 4096 × 3 × 4096 is (position / 32, position mod 32, plane, column) of
    128 × 32 × 3 × 4096. -/
private theorem split_word (k : Fin 4096) (b : Fin 3) (n : Fin 4096) :
    idx_main_v12 (ix3 k b n)
      = ix4 (Cert.LutSpec.wordOf k) (⟨k.val % 32, Nat.mod_lt _ (by decide)⟩ : Fin 32) b n := by
  funext a
  refine Fin.ext ?_
  have hk : k.val < 4096 := k.isLt
  have hb : b.val < 3 := b.isLt
  have hn : n.val < 4096 := n.isLt
  match a with
  | ⟨0, _⟩ => show ((k.val * 3 + b.val) * 4096 + n.val) / 393216 = k.val / 32; omega
  | ⟨1, _⟩ => show ((k.val * 3 + b.val) * 4096 + n.val) / 12288 % 32 = k.val % 32; omega
  | ⟨2, _⟩ => show ((k.val * 3 + b.val) * 4096 + n.val) / 4096 % 3 = b.val; omega
  | ⟨3, _⟩ => show ((k.val * 3 + b.val) * 4096 + n.val) % 4096 = n.val; omega

/-- Row-major, (position, plane, column) of 4096 × 3 × 4096 lies in group position / 128 of 32 × 128 × 3 × 4096, and the
    scale broadcast along the in-group axis is read at (group, plane, column). -/
private theorem split_group3 (k : Fin 4096) (b : Fin 3) (n : Fin 4096) :
    idx_main_v14 (idx_main_v15 (ix3 k b n)) = ix3 (Cert.LutSpec.groupOf k) b n := by
  funext a
  refine Fin.ext ?_
  have hk : k.val < 4096 := k.isLt
  have hb : b.val < 3 := b.isLt
  have hn : n.val < 4096 := n.isLt
  match a with
  | ⟨0, _⟩ => show ((k.val * 3 + b.val) * 4096 + n.val) / 1572864 = k.val / 128; omega
  | ⟨1, _⟩ => show ((k.val * 3 + b.val) * 4096 + n.val) / 4096 % 3 = b.val; omega
  | ⟨2, _⟩ => show ((k.val * 3 + b.val) * 4096 + n.val) % 4096 = n.val; omega

/-- The same for the offsets: (position, column) of 4096 × 4096 is read at (position / 128, column). -/
private theorem split_group2 (k : Fin 4096) (n : Fin 4096) :
    idx_main_v16 (idx_main_v17 (ix2 k n)) = ix2 (Cert.LutSpec.groupOf k) n := by
  funext a
  refine Fin.ext ?_
  have hk : k.val < 4096 := k.isLt
  have hn : n.val < 4096 := n.isLt
  match a with
  | ⟨0, _⟩ => show (k.val * 4096 + n.val) / 524288 = k.val / 128; omega
  | ⟨1, _⟩ => show (k.val * 4096 + n.val) % 4096 = n.val; omega

/-- The sum over the planes reads (position, plane, column). -/
private theorem plane_read (k : Fin 4096) (n : Fin 4096) (b : Fin 3) : idx_main_v19 (ix2 k n) b = ix3 k b n := by
  funext a; match a with | ⟨0, _⟩ => rfl | ⟨1, _⟩ => rfl | ⟨2, _⟩ => rfl

/-- The contraction reads the row vector at position k … -/
private theorem lhs_read (n : Fin 4096) (k : Fin 4096) : lidx_main_v21 (ix2 (0 : Fin 1) n) k = ix2 0 k := by
  funext a; match a with | ⟨0, _⟩ => rfl | ⟨1, _⟩ => rfl

/-- … and the weight at (k, column). -/
private theorem rhs_read (n : Fin 4096) (k : Fin 4096) : ridx_main_v21 (ix2 (0 : Fin 1) n) k = ix2 k n := by
  funext a; match a with | ⟨0, _⟩ => rfl | ⟨1, _⟩ => rfl

/-- The bias broadcast along the unit axis is read at the column. -/
private theorem bias_read (n : Fin 4096) : idx_main_v22 (ix2 (0 : Fin 1) n) = ix1 n := by
  funext a; match a with | ⟨0, _⟩ => rfl

/-! ## The integer code -/

/-- At (word, bit position, plane, column) the integer chain leaves 2 · ((word >> position) & 1) − 1. -/
private theorem code_at (x1 : (⟨S128x3x4096, .i32⟩ : BufTy).Contents (Elt Ideal)) (w : Fin 128) (j : Fin 32) (b : Fin 3)
    (n : Fin 4096) :
    val_main_v11 (F := Ideal) x1 (ix4 w j b n)
      = 2#32 * (((x1 (ix3 w b n)).sshiftRight' (BitVec.ofNat 32 j.val)) &&& 1#32) - 1#32 := by
  rw [val_main_v11_apply, val_main_v9_apply, val_main_v10_apply, val_main_c_1_apply, val_main_v8_apply, val_main_c_0_apply,
    val_main_v7_apply, val_main_v6_apply, val_main_c_apply, val_main_v5_apply, val_main_v4_apply, val_main_v3_apply,
    val_main_v2_apply, val_main_v1_apply, val_main_v0_apply, word_read, shift_read,
    Cert.LutSpec.shrsi_ofNat_lt _ _ _ j.isLt]
  rfl

/-- At (position, plane, column) the reshaped code is 2 · bit − 1 for the bit of that position. -/
private theorem code_at_pos (x1 : (⟨S128x3x4096, .i32⟩ : BufTy).Contents (Elt Ideal)) (k : Fin 4096) (b : Fin 3)
    (n : Fin 4096) :
    val_main_v12 (F := Ideal) x1 (ix3 k b n) = 2#32 * Cert.LutSpec.bitw x1 k b n - 1#32 := by
  rw [val_main_v12_apply, split_word, code_at]
  rfl

/-! ## The dequantised weight, and the product -/

/-- The matrix the contraction is taken against is the dequantised weight. -/
private theorem weight_at (x1 : (⟨S128x3x4096, .i32⟩ : BufTy).Contents (Elt Ideal))
    (x2 : (⟨S32x3x4096, .f32⟩ : BufTy).Contents (Elt Ideal)) (x3 : (⟨S32x4096, .f32⟩ : BufTy).Contents (Elt Ideal))
    (k : Fin 4096) (n : Fin 4096) :
    val_main_v20 (F := Ideal) x1 x2 x3 (ix2 k n) = Cert.LutSpec.weight x1 x2 x3 k n := by
  rw [val_main_v20_apply, val_main_v19_apply, val_main_cst_apply, val_main_v17_apply, val_main_v16_apply, split_group2]
  unfold Cert.LutSpec.weight
  refine congrArg (· + x3 (ix2 (Cert.LutSpec.groupOf k) n))
    (congrArg (Cert.LutSpec.zeroE + ·) (Finset.sum_congr rfl fun b _ => ?_))
  rw [plane_read, val_main_v18_apply, val_main_v15_apply, val_main_v14_apply, split_group3, val_main_v13_apply, code_at_pos]
  rfl

theorem ref_eq_RE (x0 : (⟨S1x4096, .f32⟩ : BufTy).Contents (Elt Ideal)) (x1 : (⟨S128x3x4096, .i32⟩ : BufTy).Contents (Elt Ideal)) (x2 : (⟨S32x3x4096, .f32⟩ : BufTy).Contents (Elt Ideal)) (x3 : (⟨S32x4096, .f32⟩ : BufTy).Contents (Elt Ideal)) (x4 : (⟨S4096, .f32⟩ : BufTy).Contents (Elt Ideal)) (n : Fin 4096) :
    val_main_v23 (F := Ideal) x0 x1 x2 x3 x4 (ix2 0 n) = Cert.LutSpec.RE x0 x1 x2 x3 x4 n := by
  rw [val_main_v23_apply, val_main_v21_apply, val_main_v22_apply, bias_read]
  unfold Cert.LutSpec.RE
  refine congrArg (· + x4 (ix1 n)) (Finset.sum_congr rfl fun k _ => ?_)
  rw [lhs_read, rhs_read, weight_at]

end Cert.ReferenceIdeal.LutRef

end
-- ==== Proof.LutFinite.lean ====
/-
  Under the certificate's precondition every entry of the four float inputs is a real number.

  The precondition compares |a| with +∞ entry by entry, folds each comparison array by "and" over all its axes, and
  "and"s the four results.  If the outcome is 1 then each comparison is 1 at every entry, so |a| < +∞ there; an extended
  real whose absolute value, max a (−a), is below +∞ is neither −∞ nor +∞, hence a real number.
-/
import proofs.«419244_j24369644437526_3_alg».proof.Pre_finite_inputs
import proofs.«419244_j24369644437526_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.LutFinite

open Cert.Pre_finite_inputs Idealize.ShloMosaic

/-- The scalar shape has one index. -/
instance : Subsingleton S_.Idx := ⟨fun a b => funext fun d => d.elim0⟩

/-- An extended real whose absolute value compares below the pattern of +∞ is a real number. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hc
    unfold Ideal.cmp at h
    simp [hc] at h
  induction x using EReal.rec with
  | bot => simp at hlt
  | coe r => exact ⟨r, rfl⟩
  | top => simp at hlt

theorem finite_of_pre (a0 : FVec Ideal S1x4096 .f32) (a1 : IVec S128x3x4096 32) (a2 : FVec Ideal S32x3x4096 .f32) (a3 : FVec Ideal S32x4096 .f32) (a4 : FVec Ideal S4096 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt (a0 i) (Host.reduce_andi_all _ _ _ _ _ h1 i)
  · exact real_of_abs_lt (a2 i) (Host.reduce_andi_all _ _ _ _ _ h2 i)
  · exact real_of_abs_lt (a3 i) (Host.reduce_andi_all _ _ _ _ _ h3 i)
  · exact real_of_abs_lt (a4 i) (Host.reduce_andi_all _ _ _ _ _ h4 i)

end Cert.Pre_finite_inputs.LutFinite

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.LutAlgebra.lean ====
/-
  The accumulated form of the binary-coded quantised matrix–vector product equals its reference form wherever
  every float entry is a real number.

  Write x_k for the inputs, β(k, b) ∈ {0, 1} for the bit of position k in plane b (column n fixed), α_b and q for a
  group's scales and offset.  Position k = 128·g + kl lies in group g, so the reference's sum over the 4096
  positions is the double sum over the 32 groups and the 128 positions of a group.  Inside one group

      Σ_kl x_kl · ((0 + Σ_b α_b · (2·β(kl, b) − 1)) + q)
        = (((2·α_0)·S_0 + (2·α_1)·S_1) + (2·α_2)·S_2) + X · (q − Σ_b α_b),

  with S_b = Σ_kl x_kl · β(kl, b) and X = Σ_kl x_kl: multiply out, and collect the terms that carry no bit.  The
  right-hand side is what one group adds to the accumulator, so after all 32 groups the accumulator holds the
  reference's sum.  Distributing a product over a sum is a law of the real numbers and not of the extended reals,
  so every entry is first written as the image of a real number, both forms are computed inside the reals, and the
  embedding is applied once at the end.  The integer code 2·bit − 1 is read off the two possible words 0 and 1.
-/
import proofs.«419244_j24369644437526_3_alg».proof.Proof.LutSpec
import proofs.«419244_j24369644437526_3_alg».proof.Proof.LibBlockedSum
import Idealize.ShloMosaic.PureOps.Ideal.Laws
import Mathlib.Data.EReal.Basic
import Mathlib.Data.EReal.Operations
import Mathlib.Algebra.BigOperators.Fin
import Mathlib.Tactic.Ring
import Mathlib.Tactic.NormNum

noncomputable section

namespace Cert.LutAlgebra

open Cert.LutSpec Idealize.ShloMosaic Idealize.ShloMosaic.ValueIdx

/-! ## The embedding of the reals and finite sums; the two literals; the two possible bit words -/

/-- The embedding of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern with every bit clear denotes 0. -/
theorem zeroE_eq : zeroE = 0 := Ideal.ofBits_zero_f32

/-- Sign 0, exponent field 128, fraction 0: the pattern denotes 1 · 2^(128 − 127) = 2. -/
theorem twoE_eq : twoE = ((2 : ℝ) : EReal) := by
  simp [twoE, Ideal.ofBits, Ideal.ieee, -EReal.coe_mul]; norm_num

/-- A word masked to its lowest bit is the word 0 or the word 1, as the word's value is even or odd. -/
theorem and_one_cases (v : BitVec 32) : v &&& 1#32 = 0#32 ∨ v &&& 1#32 = 1#32 := by
  rcases Nat.mod_two_eq_zero_or_one v.toNat with h | h
  · left
    apply BitVec.eq_of_toNat_eq
    rw [BitVec.toNat_and]
    simp [Nat.and_one_is_mod, h]
  · right
    apply BitVec.eq_of_toNat_eq
    rw [BitVec.toNat_and]
    simp [Nat.and_one_is_mod, h]

/-- For the words 0 and 1 the code `2·w − 1` formed on 32-bit words, read as a signed integer, is the same code formed
    on the integers: −1 and 1 (no wrap-around happens on these two words). -/
theorem code_toInt (w : BitVec 32) (h : w = 0#32 ∨ w = 1#32) :
    (((2#32 * w - 1#32).toInt : ℤ) : ℝ) = 2 * ((w.toInt : ℤ) : ℝ) - 1 := by
  rcases h with rfl | rfl
  · have h1 : (2#32 * 0#32 - 1#32).toInt = -1 := by decide
    have h2 : (0#32 : BitVec 32).toInt = 0 := by decide
    rw [h1, h2]; norm_num
  · have h1 : (2#32 * 1#32 - 1#32).toInt = 1 := by decide
    have h2 : (1#32 : BitVec 32).toInt = 1 := by decide
    rw [h1, h2]; norm_num

/-! ## The identity of real numbers inside one group -/

/-- With S_b = Σ x·β_b, X = Σ x:  (((2α_0)S_0 + (2α_1)S_1) + (2α_2)S_2) + X·(q − Σ_b α_b) = Σ x·((0 + Σ_b α_b(2β_b − 1)) + q).
    Both sides are brought under the one sum over the group's positions, where the summands agree as polynomials. -/
theorem group_identity (x : Fin 128 → ℝ) (β : Fin 128 → Fin 3 → ℝ) (α : Fin 3 → ℝ) (q : ℝ) :
    (((2 * α 0) * (∑ kl, x kl * β kl 0) + (2 * α 1) * (∑ kl, x kl * β kl 1)) + (2 * α 2) * (∑ kl, x kl * β kl 2))
        + (∑ kl, x kl) * (q - ∑ b, α b)
      = ∑ kl, x kl * ((0 + ∑ b, α b * (2 * β kl b - 1)) + q) := by
  rw [Finset.mul_sum, Finset.mul_sum, Finset.mul_sum, Finset.sum_mul, ← Finset.sum_add_distrib,
    ← Finset.sum_add_distrib, ← Finset.sum_add_distrib]
  refine Finset.sum_congr rfl fun kl _ => ?_
  rw [Fin.sum_univ_three, Fin.sum_univ_three]
  ring

/-! ## Both forms over real entries -/

section
variable (xr : (⟨2, ![1, 4096]⟩ : Shape).Idx → ℝ) (bw : (⟨3, ![128, 3, 4096]⟩ : Shape).Idx → BitVec 32)
  (ar : (⟨3, ![32, 3, 4096]⟩ : Shape).Idx → ℝ) (qr : (⟨2, ![32, 4096]⟩ : Shape).Idx → ℝ)
  (br : (⟨1, ![4096]⟩ : Shape).Idx → ℝ)

/-- The bit of position `k`, plane `b`, column `n`, as a real number. -/
def bitR (k : Fin 4096) (b : Fin 3) (n : Fin 4096) : ℝ := (((bitw bw k b n).toInt : ℤ) : ℝ)

/-- The reference's integer code of that bit is `2·bit − 1`. -/
theorem code_bitw (k : Fin 4096) (b : Fin 3) (n : Fin 4096) :
    (((2#32 * bitw bw k b n - 1#32).toInt : ℤ) : ℝ) = 2 * bitR bw k b n - 1 :=
  code_toInt _ (and_one_cases _)

/-- S_b of a group is the image of the real sum. -/
theorem planeSum_coe (g : Fin 32) (b : Fin 3) (n : Fin 4096) :
    planeSum (fun i => (xr i : EReal)) bw g b n
      = ((∑ kl : Fin 128, xr (ix2 0 (posOf g kl)) * bitR bw (posOf g kl) b n : ℝ) : EReal) := by
  unfold planeSum
  rw [coe_sum]
  refine Finset.sum_congr rfl fun kl _ => ?_
  rw [EReal.coe_mul]; rfl

/-- X of a group likewise. -/
theorem groupSum_coe (g : Fin 32) :
    groupSum (fun i => (xr i : EReal)) g = ((∑ kl : Fin 128, xr (ix2 0 (posOf g kl)) : ℝ) : EReal) := by
  unfold groupSum; rw [coe_sum]

/-- And the sum of a group's three scales. -/
theorem alphaSum_coe (g : Fin 32) (n : Fin 4096) :
    alphaSum (fun i => (ar i : EReal)) g n = ((∑ b : Fin 3, ar (ix3 g b n) : ℝ) : EReal) := by
  unfold alphaSum; rw [coe_sum]

/-- What one group adds to the accumulator, as a real number. -/
def termR (g : Fin 32) (n : Fin 4096) : ℝ :=
  (((2 * ar (ix3 g 0 n)) * (∑ kl : Fin 128, xr (ix2 0 (posOf g kl)) * bitR bw (posOf g kl) 0 n)
      + (2 * ar (ix3 g 1 n)) * (∑ kl : Fin 128, xr (ix2 0 (posOf g kl)) * bitR bw (posOf g kl) 1 n))
      + (2 * ar (ix3 g 2 n)) * (∑ kl : Fin 128, xr (ix2 0 (posOf g kl)) * bitR bw (posOf g kl) 2 n))
    + (∑ kl : Fin 128, xr (ix2 0 (posOf g kl))) * (qr (ix2 g n) - ∑ b : Fin 3, ar (ix3 g b n))

/-- One update of a real accumulator `a` is the image of `a` plus that term. -/
theorem step_coe (g : Fin 32) (n : Fin 4096) (a : ℝ) :
    step (fun i => (xr i : EReal)) bw (fun i => (ar i : EReal)) (fun i => (qr i : EReal)) g n (a : EReal)
      = ((a + termR xr bw ar qr g n : ℝ) : EReal) := by
  unfold step termR
  rw [planeSum_coe, planeSum_coe, planeSum_coe, groupSum_coe, alphaSum_coe, twoE_eq]
  simp only [← EReal.coe_mul, ← EReal.coe_add, ← EReal.coe_sub]
  congr 1; ring

/-- The same term indexed by a natural number, zero past the last group. -/
def termN (n : Fin 4096) (g : ℕ) : ℝ := if h : g < 32 then termR xr bw ar qr ⟨g, h⟩ n else 0

/-- After the first `k` groups the accumulator is the image of the sum of their terms. -/
theorem accE_coe (n : Fin 4096) (k : ℕ) (hk : k ≤ 32) :
    accE (fun i => (xr i : EReal)) bw (fun i => (ar i : EReal)) (fun i => (qr i : EReal)) n k
      = ((∑ g ∈ Finset.range k, termN xr bw ar qr n g : ℝ) : EReal) := by
  induction k with
  | zero =>
    rw [accE_zero, Finset.range_zero, Finset.sum_empty, EReal.coe_zero]
    exact zeroE_eq
  | succ k ih =>
    have hk' : k < 32 := hk
    have h := accE_succ (fun i => (xr i : EReal)) bw (fun i => (ar i : EReal)) (fun i => (qr i : EReal)) n ⟨k, hk'⟩
    rw [h, ih (le_of_lt hk'), step_coe, Finset.sum_range_succ, termN, dif_pos hk']

/-- The dequantised weight, as a real number. -/
def weightR (k : Fin 4096) (n : Fin 4096) : ℝ :=
  (0 + ∑ b : Fin 3, ar (ix3 (groupOf k) b n) * (2 * bitR bw k b n - 1)) + qr (ix2 (groupOf k) n)

theorem weight_coe (k : Fin 4096) (n : Fin 4096) :
    weight bw (fun i => (ar i : EReal)) (fun i => (qr i : EReal)) k n = ((weightR bw ar qr k n : ℝ) : EReal) := by
  unfold weight weightR
  have h : ∀ b : Fin 3, (fun i => (ar i : EReal)) (ix3 (groupOf k) b n) * ((((2#32 * bitw bw k b n - 1#32).toInt : ℤ) : ℝ) : EReal)
      = ((ar (ix3 (groupOf k) b n) * (2 * bitR bw k b n - 1) : ℝ) : EReal) := fun b => by
    rw [code_bitw, EReal.coe_mul]
  rw [zeroE_eq, Finset.sum_congr rfl (fun b _ => h b), ← coe_sum, ← EReal.coe_zero, ← EReal.coe_add, ← EReal.coe_add]

/-- The reference form is the image of the real sum over all positions, plus the bias. -/
theorem RE_coe (n : Fin 4096) :
    RE (fun i => (xr i : EReal)) bw (fun i => (ar i : EReal)) (fun i => (qr i : EReal)) (fun i => (br i : EReal)) n
      = (((∑ k : Fin 4096, xr (ix2 0 k) * weightR bw ar qr k n) + br (ix1 n) : ℝ) : EReal) := by
  unfold RE
  have h : ∀ k : Fin 4096, (fun i => (xr i : EReal)) (ix2 0 k)
        * weight bw (fun i => (ar i : EReal)) (fun i => (qr i : EReal)) k n
      = ((xr (ix2 0 k) * weightR bw ar qr k n : ℝ) : EReal) := fun k => by
    rw [weight_coe, EReal.coe_mul]
  rw [Finset.sum_congr rfl (fun k _ => h k), ← coe_sum, ← EReal.coe_add]

/-- Position `kl` of group `g` lies in group `g`: (128·g + kl) / 128 = g. -/
theorem groupOf_posOf (g : Fin 32) (kl : Fin 128) : groupOf (posOf g kl) = g := by
  apply Fin.ext
  rw [groupOf_val, posOf_val]
  have := kl.isLt
  omega

/-- The real sum over all positions, cut into the 32 groups, is the sum of the groups' terms. -/
theorem sum_groups (n : Fin 4096) :
    ∑ k : Fin 4096, xr (ix2 0 k) * weightR bw ar qr k n = ∑ g : Fin 32, termR xr bw ar qr g n := by
  rw [Cert.LibBlockedSum.sum_blocks 32 128 rfl]
  refine Finset.sum_congr rfl fun g _ => ?_
  have hpos : ∀ kl, Cert.LibBlockedSum.blockIdx 32 128 rfl g kl = posOf g kl := fun kl => Fin.ext rfl
  unfold termR
  refine Eq.trans (Finset.sum_congr rfl fun kl _ => ?_)
    (group_identity (fun kl => xr (ix2 0 (posOf g kl))) (fun kl b => bitR bw (posOf g kl) b n)
      (fun b => ar (ix3 g b n)) (qr (ix2 g n))).symm
  rw [hpos, weightR, groupOf_posOf]

end

/-! ## The two forms agree -/

/-- Where every float entry is a real number, the accumulated form of column `n` is its reference form. -/
theorem KE_eq_RE (x : (⟨2, ![1, 4096]⟩ : Shape).Idx → EReal) (bw : (⟨3, ![128, 3, 4096]⟩ : Shape).Idx → BitVec 32)
    (al : (⟨3, ![32, 3, 4096]⟩ : Shape).Idx → EReal) (qb : (⟨2, ![32, 4096]⟩ : Shape).Idx → EReal) (bi : (⟨1, ![4096]⟩ : Shape).Idx → EReal)
    (hx : ∀ i, ∃ r : ℝ, x i = (r : EReal)) (hal : ∀ i, ∃ r : ℝ, al i = (r : EReal)) (hqb : ∀ i, ∃ r : ℝ, qb i = (r : EReal)) (hbi : ∀ i, ∃ r : ℝ, bi i = (r : EReal))
    (n : Fin 4096) : KE x bw al qb bi n = RE x bw al qb bi n := by
  obtain ⟨xr, hxr⟩ : ∃ xr : _ → ℝ, ∀ i, x i = (xr i : EReal) := ⟨fun i => (hx i).choose, fun i => (hx i).choose_spec⟩
  obtain ⟨ar, har⟩ : ∃ ar : _ → ℝ, ∀ i, al i = (ar i : EReal) := ⟨fun i => (hal i).choose, fun i => (hal i).choose_spec⟩
  obtain ⟨qr, hqr⟩ : ∃ qr : _ → ℝ, ∀ i, qb i = (qr i : EReal) := ⟨fun i => (hqb i).choose, fun i => (hqb i).choose_spec⟩
  obtain ⟨br, hbr⟩ : ∃ br : _ → ℝ, ∀ i, bi i = (br i : EReal) := ⟨fun i => (hbi i).choose, fun i => (hbi i).choose_spec⟩
  obtain rfl : x = fun i => (xr i : EReal) := funext hxr
  obtain rfl : al = fun i => (ar i : EReal) := funext har
  obtain rfl : qb = fun i => (qr i : EReal) := funext hqr
  obtain rfl : bi = fun i => (br i : EReal) := funext hbr
  unfold KE
  have h : ∀ g : Fin 32, termN xr bw ar qr n g.val = termR xr bw ar qr g n := fun g => dif_pos g.isLt
  rw [accE_coe xr bw ar qr n 32 le_rfl, RE_coe, Finset.sum_range, sum_groups, EReal.coe_add,
    Finset.sum_congr rfl (fun g _ => h g)]

end Cert.LutAlgebra

end
-- ==== Proof.lean ====
/-
  A binary-coded quantised matrix–vector product against its dequantise-then-multiply reference.

  Both programs compute, for each of 4096 columns n,   out_n = Σ_k x_k · W(k, n) + bias_n   with
  W(k, n) = Σ_b α(g(k), b, n) · (2·bit(k, b, n) − 1) + q(g(k), n): 4096 input positions k in 32 groups g(k) = k / 128 of 128,
  three bit planes b, and bit(k, b, n) the bit k mod 32 of the 32-bit word k / 32 of plane b, column n.

  The reference builds the ±1 codes on integers, forms W and multiplies (LutRef: its 28 operations read at an index are
  the reference form `RE`).  The kernel never forms W: per group it accumulates (2·α_b)·(Σ_k x_k·bit_b) for the three
  planes and then (Σ_k x_k)·(q − Σ_b α_b), 32 passes over an accumulator row that starts at zero, and adds the bias at the
  end (LutRun: the body's stores read back as a recursion over the passes; LutTripAt: one pass at a column; LutBlocks: the
  loads traced to the argument arrays; LutKernel: the four grid points' rows tile the result, which is the accumulated form
  `KE`).  The two forms agree because inside a group Σ_k x_k·(2·bit − 1) = 2·Σ_k x_k·bit − Σ_k x_k; that step distributes
  products over sums, which on the extended reals needs every entry to be a real number — what the precondition says of
  the four float inputs (LutFinite) — and the identity is then one of real numbers (LutAlgebra).
  The kernel's idealisation rewrote nothing, so there is nothing to preserve; the three frames are the programs' runs.
-/
import proofs.«419244_j24369644437526_3_alg».proof.Defs
import proofs.«419244_j24369644437526_3_alg».proof.Proof.Gen.Kernel
import proofs.«419244_j24369644437526_3_alg».proof.Proof.Gen.Kernel.Skeleton
import proofs.«419244_j24369644437526_3_alg».proof.Proof.Gen.Kernel.Loops
import proofs.«419244_j24369644437526_3_alg».proof.Proof.Gen.Kernel.Launch
import proofs.«419244_j24369644437526_3_alg».proof.Proof.Gen.Kernel.Points
import proofs.«419244_j24369644437526_3_alg».proof.Proof.Gen.Kernel.Frame
import proofs.«419244_j24369644437526_3_alg».proof.Proof.Gen.KernelIdeal
import proofs.«419244_j24369644437526_3_alg».proof.Proof.Gen.KernelIdeal.Skeleton
import proofs.«419244_j24369644437526_3_alg».proof.Proof.Gen.KernelIdeal.Loops
import proofs.«419244_j24369644437526_3_alg».proof.Proof.Gen.KernelIdeal.Launch
import proofs.«419244_j24369644437526_3_alg».proof.Proof.Gen.KernelIdeal.Points
import proofs.«419244_j24369644437526_3_alg».proof.Proof.Gen.KernelIdeal.Frame
import proofs.«419244_j24369644437526_3_alg».proof.Proof.Gen.ReferenceIdeal
import proofs.«419244_j24369644437526_3_alg».proof.Proof.Gen.Pre_finite_inputs
import proofs.«419244_j24369644437526_3_alg».proof.Proof.Gen.KernelIdeal.Value
import proofs.«419244_j24369644437526_3_alg».proof.Proof.Gen.ReferenceIdeal.Run
import proofs.«419244_j24369644437526_3_alg».proof.Proof.Gen.ReferenceIdeal.Read
import proofs.«419244_j24369644437526_3_alg».proof.Proof.LutKernel
import proofs.«419244_j24369644437526_3_alg».proof.Proof.LutRef
import proofs.«419244_j24369644437526_3_alg».proof.Proof.LutFinite
import proofs.«419244_j24369644437526_3_alg».proof.Proof.LutAlgebra
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is 28 host operations in a row: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the five arguments, the kernel's result array is the accumulated
    form and the reference's the reference form, column by column; under the precondition every float entry is real, and
    there the two forms are equal. -/
theorem algebraic : Cert.algebraic_KernelIdeal_ReferenceIdeal := by
  intro m ρ m' ρ' hpre hagree
  refine ⟨fun c => Cert.KernelIdeal.LutKernel.Gout m c, Cert.KernelIdeal.LutKernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v23_eq _ _ _ _ _).trans ?_
  obtain ⟨h0, h2, h3, h4⟩ := Cert.Pre_finite_inputs.LutFinite.finite_of_pre _ _ _ _ _ (hpre c)
  funext i
  have hi : i = ValueIdx.ix2 (0 : Fin 1) (⟨(i 1).val, (i 1).isLt⟩ : Fin 4096) := by
    funext a
    match a with
    | ⟨0, _⟩ => exact Fin.ext (Nat.lt_one_iff.mp (i 0).isLt)
    | ⟨1, _⟩ => rfl
  obtain ⟨n, hn⟩ : ∃ n : Fin 4096, i = ValueIdx.ix2 (0 : Fin 1) n := ⟨_, hi⟩
  subst hn
  rw [Cert.ReferenceIdeal.LutRef.ref_eq_RE]
  exact (Cert.LutAlgebra.KE_eq_RE _ _ _ _ _ h0 h2 h3 h4 n).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
